-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S4x4096x1024 .f32) (main_arg2 : FVec F S4x4096x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S4x1024x1024, .bf16⟩
  | .hbm, ⟨5, _⟩ => ⟨S4x1024x1024, .bf16⟩
  | .hbm, ⟨6, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1x512x1024, .f32⟩
  | .local _ .vmem, ⟨13, _⟩ => ⟨S1x512x1024, .f32⟩
  | .local _ .vmem, ⟨14, _⟩ => ⟨S1024x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x512x1024, .f32⟩
  | .local _ .vmem, ⟨20, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S256x1024_S256x1024_S1024x1024_0_0_1_1_n_n_wf : DotDims.WF S256x1024 S256x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x4096x1024.size a
  hwx0_1 : ∀ i : grid0.Coords, EltTy.bits .f32 = 32 ∨ (Rect.block (s := S4x4096x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x4096x1024.size a
  hwx0_2 : ∀ i : grid0.Coords, EltTy.bits .f32 = 32 ∨ (Rect.block (s := S4x4096x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .bf16 = 32 ∨ (Rect.block (s := S4x1024x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x1024x1024.size a
  hwx0_4 : ∀ i : grid0.Coords, EltTy.bits .bf16 = 32 ∨ (Rect.block (s := S4x1024x1024) S1x1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .bf16 = 32 ∨ (Rect.block (s := S4x1024x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .bf16 = 32 ∨ (Rect.block (s := S4x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S4x4096x1024, .f32⟩
  | .hbm, ⟨5, _⟩ => ⟨S4x1024x1024, .f32⟩
  | .hbm, ⟨6, _⟩ => ⟨S4x1024x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x1024_0_1_2 : S4x4096x1.BroadcastsInDim S4x4096x1024 (![0, 1, 2] : Fin 3 → Fin S4x4096x1024.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.K.Defs.lean ====
/-
  Region by region, what the two kernels compute, as pure functions of the blocks the pipeline hands them.

  Region 0 walks a 4 × 16 grid (batch b, S-block s; point t = 16·b + s). At each point it adds the block products
  qᵀk and kᵀv (contracting the 256 rows of the S-block) to two 1024 × 1024 accumulators kept in scratch memory, which it
  zeroes when s = 0 and writes out, re-laid as 1 × 1024 × 1024, when s = 15. Region 1 walks a 4 × 8 grid and maps each
  512-row block of the query through (q·w)·C, a row softmax, and ·X.
-/
import proofs.«169305_j78357383348331_1_alg».proof.Proof.Gen.Kernel.Launch
import proofs.«169305_j78357383348331_1_alg».proof.Proof.Gen.Kernel.Skeleton
import proofs.«169305_j78357383348331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0: the accumulating kernel -/

/-- One accumulation step of the first accumulator: `a + x0ᵀ·x1`, the product contracting the block's 256 rows. -/
def stepC (x0 x1 : Vec F S1x256x1024 .f32) (a : Vec F S1024x1024 .f32) : Vec F S1024x1024 .f32 := k0_pay4 x0 x1 a
/-- One accumulation step of the second accumulator: `a + x1ᵀ·x2`. -/
def stepX (x1 x2 : Vec F S1x256x1024 .f32) (a : Vec F S1024x1024 .f32) : Vec F S1024x1024 .f32 := k0_pay5 x1 x2 a
/-- The zero matrix each accumulator is reset to at the first S-block of a batch. -/
def zeroC : Vec F S1024x1024 .f32 := k0_pay1
def zeroX : Vec F S1024x1024 .f32 := k0_pay2
/-- What is written out of an accumulator at the last S-block of a batch: its format changed, one unit axis added. -/
def outC (a : Vec F S1024x1024 .f32) : Vec F S1x1024x1024 .bf16 := k0_pay6 a
def outX (a : Vec F S1024x1024 .f32) : Vec F S1x1024x1024 .bf16 := k0_pay7 a

/-- The reset condition (`s = 0`) and the write-out condition (`s = 15`) as the kernel computes them. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- The inputs are never idle; the two outputs are idle, and not written back, exactly away from `s = 15`. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-- The two scratch accumulators as memrefs. -/
abbrev scC : Memref sig .tc .vmem S1024x1024 .f32 := Memref.whole cc0_scratch0
abbrev scX : Memref sig .tc .vmem S1024x1024 .f32 := Memref.whole cc0_scratch1

section AtV
-- the TensorCore's buffer contents when a region is entered
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query, key and value blocks of point `t`, at their literal type. -/
abbrev qb (c : Dev nD) (t : Fin cfg0.N) : Vec F S1x256x1024 .f32 := iblk0 V c 0 t
abbrev kb (c : Dev nD) (t : Fin cfg0.N) : Vec F S1x256x1024 .f32 := iblk0 V c 1 t
abbrev vb (c : Dev nD) (t : Fin cfg0.N) : Vec F S1x256x1024 .f32 := iblk0 V c 2 t

/-- Both accumulators after point `n`: the step applied to zero at the first S-block of a batch, else to what the
    point before left. -/
def accAt (c : Dev nD) : (n : ℕ) → n < cfg0.N → Vec F S1024x1024 .f32 × Vec F S1024x1024 .f32
  | 0, hn => (stepC (qb V c ⟨0, hn⟩) (kb V c ⟨0, hn⟩) zeroC, stepX (kb V c ⟨0, hn⟩) (vb V c ⟨0, hn⟩) zeroX)
  | n + 1, hn =>
    if (n + 1) % 16 = 0 then
      (stepC (qb V c ⟨n + 1, hn⟩) (kb V c ⟨n + 1, hn⟩) zeroC, stepX (kb V c ⟨n + 1, hn⟩) (vb V c ⟨n + 1, hn⟩) zeroX)
    else
      (stepC (qb V c ⟨n + 1, hn⟩) (kb V c ⟨n + 1, hn⟩) (accAt c n (Nat.lt_of_succ_lt hn)).1,
       stepX (kb V c ⟨n + 1, hn⟩) (vb V c ⟨n + 1, hn⟩) (accAt c n (Nat.lt_of_succ_lt hn)).2)

/-- At the first S-block of a batch the accumulators start from zero. -/
theorem accAt_reset (c : Dev nD) (t : Fin cfg0.N) (h : t.val % 16 = 0) :
    accAt V c t.val t.isLt = (stepC (qb V c t) (kb V c t) zeroC, stepX (kb V c t) (vb V c t) zeroX) := by
  obtain ⟨n, hn⟩ := t
  cases n with
  | zero => rfl
  | succ n => exact if_pos h

/-- At every other point they continue from what the point before left. -/
theorem accAt_step (c : Dev nD) (t : Fin cfg0.N) (h : ¬t.val % 16 = 0) :
    accAt V c t.val t.isLt = (stepC (qb V c t) (kb V c t) (accAt V c (t.val - 1) (Nat.lt_of_le_of_lt (Nat.sub_le _ _) t.isLt)).1,
      stepX (kb V c t) (vb V c t) (accAt V c (t.val - 1) (Nat.lt_of_le_of_lt (Nat.sub_le _ _) t.isLt)).2) := by
  obtain ⟨n, hn⟩ := t
  cases n with
  | zero => exact absurd (Nat.zero_mod _) h
  | succ n => exact if_neg h

/-! ## Region 1: the map kernel -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, the filter, and the two batch matrices of point `t`, at their literal types. -/
abbrev qb1 (c : Dev nD) (t : Fin cfg1.N) : Vec F S1x512x1024 .f32 := iblk1 V c 0 t
abbrev wb1 (c : Dev nD) (t : Fin cfg1.N) : Vec F S1024x1024 .f32 := iblk1 V c 1 t
abbrev cb1 (c : Dev nD) (t : Fin cfg1.N) : Vec F S1x1024x1024 .bf16 := iblk1 V c 2 t
abbrev xb1 (c : Dev nD) (t : Fin cfg1.N) : Vec F S1x1024x1024 .bf16 := iblk1 V c 3 t

end AtV

/-- The block region 1 stores: `softmax((x0·x1)·x2)·x3` row by row. -/
def outO (x0 : Vec F S1x512x1024 .f32) (x1 : Vec F S1024x1024 .f32) (x2 x3 : Vec F S1x1024x1024 .bf16) : Vec F S1x512x1024 .f32 :=
  k1_pay1 x0 x1 x2 x3

end Cert.Kernel.Hand

end
-- ==== Proof.K.R0Body.lean ====
/-
  The accumulating kernel's body, run once in each of its three control cases on whole staging memrefs:
  at the first S-block of a batch (both accumulators reset, then stepped), in the middle (stepped), and at the last
  S-block (stepped, then written out). Each run leaves the three input blocks as found and the accumulators at
  the step of what they held.
-/
import proofs.«169305_j78357383348331_1_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole rectangle are all zero, on two axes and on three. -/
private theorem off2 : (![0, 0] : Fin 2 → ℕ) = fun _ => 0 := funext fun a => by fin_cases a <;> rfl
private theorem off3 : (![0, 0, 0] : Fin 3 → ℕ) = fun _ => 0 := funext fun a => by fin_cases a <;> rfl

/-- An input block held whole, read through its whole rectangle, is the block. -/
private theorem load_in {m : Memref sig .tc .vmem S1x256x1024 .f32} (h : m.IsWhole) (X : Vec F S1x256x1024 .f32) :
    View.readAt (Elt F) m.view (Rect.unit (s := S1x256x1024) ![0, 0, 0] S1x256x1024.size inb_S1x256x1024_S1x256x1024_0_0_0).toLoadRect (h.unread X) = X := by
  rw [View.readAt_eq_ld, h.read_unread, View.ld_unit_zero (S := S1x256x1024) off3]

/-- An accumulator held whole, read through its whole rectangle, is what it holds. -/
private theorem load_acc {m : Memref sig .tc .vmem S1024x1024 .f32} (h : m.IsWhole) (X : Vec F S1024x1024 .f32) :
    View.readAt (Elt F) m.view (Rect.unit (s := S1024x1024) ![0, 0] S1024x1024.size inb_S1024x1024_S1024x1024_0_0).toLoadRect (h.unread X) = X := by
  rw [View.readAt_eq_ld, h.read_unread, View.ld_unit_zero (S := S1024x1024) off2]

/-- An accumulator whose last store filled its whole rectangle reads as that store's payload, whatever came before. -/
private theorem read_store_acc (v : View sig .tc .vmem S1024x1024 .f32) (f : v.ty.Contents (Elt F)) (w : Vec F S1024x1024 .f32)
    (L : List (View.Piece (Elt F) S1024x1024 .f32)) :
    v.read (Elt F) (v.writes (Elt F) f (⟨Rect.unit (s := S1024x1024) ![0, 0] S1024x1024.size inb_S1024x1024_S1024x1024_0_0, w⟩ :: L)) = w := by
  rw [View.read_writes_eq_canon _ _ _ (fun y => ⟨_, List.mem_cons_self .., View.mem_set_unit_zero off2 inb_S1024x1024_S1024x1024_0_0 y⟩)]
  exact View.canon_cons_unit_zero off2 _ w L

/-- The same for an output block. -/
private theorem read_store_out (v : View sig .tc .vmem S1x1024x1024 .bf16) (f : v.ty.Contents (Elt F)) (w : Vec F S1x1024x1024 .bf16)
    (L : List (View.Piece (Elt F) S1x1024x1024 .bf16)) :
    v.read (Elt F) (v.writes (Elt F) f (⟨Rect.unit (s := S1x1024x1024) ![0, 0, 0] S1x1024x1024.size inb_S1x1024x1024_S1x1024x1024_0_0_0, w⟩ :: L)) = w := by
  rw [View.read_writes_eq_canon _ _ _ (fun y => ⟨_, List.mem_cons_self .., View.mem_set_unit_zero off3 inb_S1x1024x1024_S1x1024x1024_0_0_0 y⟩)]
  exact View.canon_cons_unit_zero off3 _ w L

set_option maxHeartbeats 1000000 in
/-- First S-block of a batch: whatever the accumulators held, they end at one step from zero; the outputs are untouched. -/
theorem run0_A (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : cond0_0 i) (hc1 : ¬cond0_1 i)
    (x0 x1 x2 : Vec F S1x256x1024 .f32) (d5 d6 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6
        ∗ (∃ a, owns (c : Thread nD τ) arg7 fullShare a) ∗ (∃ a, owns (c : Thread nD τ) arg8 fullShare a)
        ∗ (iprop(owns (c : Thread nD τ) arg2 fullShare x0 ∗ owns (c : Thread nD τ) arg3 fullShare x1 ∗ owns (c : Thread nD τ) arg4 fullShare x2
            ∗ owns (c : Thread nD τ) arg5 fullShare d5 ∗ owns (c : Thread nD τ) arg6 fullShare d6
            ∗ owns (c : Thread nD τ) arg7 fullShare (stepC x0 x1 zeroC) ∗ owns (c : Thread nD τ) arg8 fullShare (stepX x1 x2 zeroX)) -∗ K ⟨⟩))
      ⊢ wp frame (wpE (defs₀ (F := F)) Variants.none c none) E (cc0__kernel1 i arg2 harg2 arg3 harg3 arg4 harg4 arg5 harg5 arg6 harg6 arg7 harg7 arg8 harg8) K := by
  simp only [cc0__kernel1_eq_skeleton]; unfold cc0__kernel1_skel
  unfold owns
  iintro ⟨⟨%f2, %hf2, H2⟩, ⟨%f3, %hf3, H3⟩, ⟨%f4, %hf4, H4⟩, ⟨%f5, %hf5, H5⟩, ⟨%f6, %hf6, H6⟩, ⟨%a7, %f7, -, H7⟩, ⟨%a8, %f8, -, H8⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    rw [read_store_acc]
    sl_unfold_run_names
    rw [View.readCov_cons_toLoadRect, load_in harg2, load_in harg3]; rfl
  iexists _; isplitr
  swap; · iexact H8
  ipureintro
  rw [read_store_acc]
  sl_unfold_run_names
  rw [View.readCov_cons_toLoadRect, load_in harg3, load_in harg4]; rfl

set_option maxHeartbeats 1000000 in
/-- A middle S-block: the accumulators step from what they held; the outputs are untouched. -/
theorem run0_B (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : ¬cond0_1 i)
    (x0 x1 x2 : Vec F S1x256x1024 .f32) (d5 d6 : Vec F S1x1024x1024 .bf16) (a7 a8 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare d5 ∗ owns (c : Thread nD τ) arg6 fullShare d6
            ∗ owns (c : Thread nD τ) arg7 fullShare (stepC x0 x1 a7) ∗ owns (c : Thread nD τ) arg8 fullShare (stepX x1 x2 a8)) -∗ K ⟨⟩))
      ⊢ wp frame (wpE (defs₀ (F := F)) Variants.none c none) E (cc0__kernel1 i arg2 harg2 arg3 harg3 arg4 harg4 arg5 harg5 arg6 harg6 arg7 harg7 arg8 harg8) K := by
  simp only [cc0__kernel1_eq_skeleton]; unfold cc0__kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    rw [read_store_acc, load_in harg2, load_in harg3, load_acc harg7]; rfl
  iexists _; isplitr
  swap; · iexact H8
  ipureintro
  rw [read_store_acc, load_in harg3, load_in harg4, load_acc harg8]; rfl

set_option maxHeartbeats 1000000 in
/-- The last S-block of a batch: the accumulators step, and each is written out into its output buffer. -/
theorem run0_C (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : cond0_1 i)
    (x0 x1 x2 : Vec F S1x256x1024 .f32) (a7 a8 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare (outC (stepC x0 x1 a7)) ∗ owns (c : Thread nD τ) arg6 fullShare (outX (stepX x1 x2 a8))
            ∗ owns (c : Thread nD τ) arg7 fullShare (stepC x0 x1 a7) ∗ owns (c : Thread nD τ) arg8 fullShare (stepX x1 x2 a8)) -∗ K ⟨⟩))
      ⊢ wp frame (wpE (defs₀ (F := F)) Variants.none c none) E (cc0__kernel1 i arg2 harg2 arg3 harg3 arg4 harg4 arg5 harg5 arg6 harg6 arg7 harg7 arg8 harg8) K := by
  simp only [cc0__kernel1_eq_skeleton]; unfold cc0__kernel1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_store_out]
    sl_unfold_run_names
    rw [View.readCov_cons_toLoadRect, load_in harg2, load_in harg3, load_acc harg7]; rfl
  isplitl [H6]
  · iexists _; isplitr
    swap; · iexact H6
    ipureintro
    rw [read_store_out]
    sl_unfold_run_names
    rw [View.readCov_cons_toLoadRect, load_in harg3, load_in harg4, load_acc harg8]; rfl
  isplitl [H7]
  · iexists _; isplitr
    swap; · iexact H7
    ipureintro
    sl_unfold_run_names
    rw [read_store_acc, load_in harg2, load_in harg3, load_acc harg7]; rfl
  iexists _; isplitr
  swap; · iexact H8
  ipureintro
  sl_unfold_run_names
  rw [read_store_acc, load_in harg3, load_in harg4, load_acc harg8]; rfl

end Cert.Kernel.Hand

end
-- ==== Proof.K.Dat0.lean ====
/-
  The proof data of the accumulating region at the contents `V` it is entered from: its three inputs hold their
  blocks at every point; between points the two scratch accumulators hold the partial sums `accAt`; the two outputs
  are written only at the last S-block of a batch, with the finished sums.
-/
import proofs.«169305_j78357383348331_1_alg».proof.Proof.K.R0Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-- An input window's current staging buffer holds its block at every point (each is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The core's scoped buffers that region 0 does not use (the other region's staging buffers), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's starting invariant spelled out: both accumulators at some contents, the unused scoped buffers, the
    generator register at some state. -/
theorem PhiA0_eq (c : Dev nD) :
    (Pipeline.ΦA spec0 c : sProp 𝕄)
      = iprop(((∃ d, owns (c : Thread nD τ) scC fullShare d) ∗ (∃ d, owns (c : Thread nD τ) scX fullShare d) ∗ restS (F := F) c) ∗ (∃ r, prngReg c r)) := by
  unfold Pipeline.ΦA restS; rw [scopedRest0_eq]; simp only [scC, scX, owns_whole]; try rfl

/-- The invariant before point `n`: at the start the accumulators hold anything; afterwards they hold the partial
    sums the point before left. -/
def PhiS (c : Dev nD) : (n : ℕ) → n ≤ cfg0.N → sProp 𝕄
  | 0, _ => Pipeline.ΦA spec0 c
  | n + 1, hn => iprop((owns (c : Thread nD τ) scC fullShare (accAt V c n hn).1 ∗ owns (c : Thread nD τ) scX fullShare (accAt V c n hn).2 ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scC fullShare (accAt V c n hn).1 ∗ owns (c : Thread nD τ) scX fullShare (accAt V c n hn).2 ∗ restS (F := F) c) ∗ (∃ r, prngReg c r)) := rfl
theorem PhiS_pos (c : Dev nD) (n : ℕ) (h : n ≤ cfg0.N) (hz : n ≠ 0) :
    PhiS V c n h = iprop((owns (c : Thread nD τ) scC fullShare (accAt V c (n - 1) (by omega)).1 ∗ owns (c : Thread nD τ) scX fullShare (accAt V c (n - 1) (by omega)).2 ∗ restS (F := F) c) ∗ (∃ r, prngReg c r)) := by
  cases n with
  | zero => exact absurd rfl hz
  | succ n => rfl

/-- The proof data of pipeline 0 on core `c`. An output's `after` is consulted only where it is written back. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outC (accAt V c t.val t.isLt).1
    | ⟨4, _⟩ => outX (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outC (accAt V c t.val t.isLt).1 := by dsimp only [dat0]
theorem after0_4 (c : Dev nD) (t : Fin cfg0.N) : (dat0 V c).after 4 t = outX (accAt V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Each window's current staging memref at point `t`, at its literal type, and its wholeness. -/
abbrev cur0_0 (t : Fin cfg0.N) : Memref sig .tc .vmem S1x256x1024 .f32 := win0_0.stage (cfg0.slots t 0)
abbrev cur0_0_whole (t : Fin cfg0.N) : (cur0_0 t).IsWhole := hstage0_0 ((cfg0.slots t 0).cast nbuf0_0)
abbrev cur0_1 (t : Fin cfg0.N) : Memref sig .tc .vmem S1x256x1024 .f32 := win0_1.stage (cfg0.slots t 1)
abbrev cur0_1_whole (t : Fin cfg0.N) : (cur0_1 t).IsWhole := hstage0_1 ((cfg0.slots t 1).cast nbuf0_1)
abbrev cur0_2 (t : Fin cfg0.N) : Memref sig .tc .vmem S1x256x1024 .f32 := win0_2.stage (cfg0.slots t 2)
abbrev cur0_2_whole (t : Fin cfg0.N) : (cur0_2 t).IsWhole := hstage0_2 ((cfg0.slots t 2).cast nbuf0_2)
abbrev cur0_3 (t : Fin cfg0.N) : Memref sig .tc .vmem S1x1024x1024 .bf16 := win0_3.stage (cfg0.slots t 3)
abbrev cur0_3_whole (t : Fin cfg0.N) : (cur0_3 t).IsWhole := hstage0_3 ((cfg0.slots t 3).cast nbuf0_3)
abbrev cur0_4 (t : Fin cfg0.N) : Memref sig .tc .vmem S1x1024x1024 .bf16 := win0_4.stage (cfg0.slots t 4)
abbrev cur0_4_whole (t : Fin cfg0.N) : (cur0_4 t).IsWhole := hstage0_4 ((cfg0.slots t 4).cast nbuf0_4)

/-- What the body is handed at point `t`: the invariant before the point, what the core owes, and each window's
    current buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (cur0_0 t) fullShare ((dat0 V c).before 0 t d))
    ∗ (∃ d, owns (c : Thread nD τ) (cur0_1 t) fullShare ((dat0 V c).before 1 t d))
    ∗ (∃ d, owns (c : Thread nD τ) (cur0_2 t) fullShare ((dat0 V c).before 2 t d))
    ∗ (∃ d, owns (c : Thread nD τ) (cur0_3 t) fullShare ((dat0 V c).before 3 t d))
    ∗ (∃ d, owns (c : Thread nD τ) (cur0_4 t) fullShare ((dat0 V c).before 4 t d)))

/-- What it hands back: the invariant before the next point, what the core owes, and each window's current buffer
    at what the point leaves in it. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1000000 in
/-- A point with `s = 0`: both accumulators, whatever they held, end one step from zero; the two outputs are idle
    and keep what they were handed. -/
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  have h1 : ¬t.val % 16 = 15 := by omega
  have hc0 : cond0_0 (grid0.coords t) := (hcond0_0 t).mpr h0
  have hc1 : ¬cond0_1 (grid0.coords t) := fun h => h1 ((hcond0_1 t).mp h)
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (cur0_0 t) fullShare ((dat0 V c).after 0 t) from by
    unfold Dat.leavesExact; rw [liveAt0_0 t], after0_0]
  rw [show (dat0 V c).leavesExact 1 t = owns (c : Thread nD τ) (cur0_1 t) fullShare ((dat0 V c).after 1 t) from by
    unfold Dat.leavesExact; rw [liveAt0_1 t], after0_1]
  rw [show (dat0 V c).leavesExact 2 t = owns (c : Thread nD τ) (cur0_2 t) fullShare ((dat0 V c).after 2 t) from by
    unfold Dat.leavesExact; rw [liveAt0_2 t], after0_2]
  rw [Dat.leavesExact_idle (dat0 V c) 3 t (idleAt0_3 t hc1) (noFlush0_3 t hc1)]
  rw [Dat.leavesExact_idle (dat0 V c) 4 t (idleAt0_4 t hc1) (noFlush0_4 t hc1)]
  rw [accAt_reset V c t h0]
  dsimp only
  by_cases hz : t.val = 0
  · rw [Phi0_castSucc V c t, PhiS_zero V c _ _ hz, PhiA0_eq]
    iintro ⟨⟨⟨HC, HX, HR⟩, Hg⟩, Ho, ⟨%d0, H0⟩, ⟨%d1, H1⟩, ⟨%d2, H2⟩, ⟨%d3, H3⟩, ⟨%d4, H4⟩⟩
    iapply (run0_A c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) ((dat0 V c).before 3 t d3) ((dat0 V c).before 4 t d4) _)
    isplitl [H0]; · iexact H0
    isplitl [H1]; · iexact H1
    isplitl [H2]; · iexact H2
    isplitl [H3]; · iexact H3
    isplitl [H4]; · iexact H4
    isplitl [HC]; · iexact HC
    isplitl [HX]; · iexact HX
    iintro ⟨H0, H1, H2, H3, H4, HC, HX⟩
    isplitl [HC HX HR Hg]
    · isplitl [HC HX HR]
      · isplitl [HC]; · iexact HC
        isplitl [HX]; · iexact HX
        iexact HR
      iexact Hg
    isplitl [Ho]; · iexact Ho
    isplitl [H0]; · iexact H0
    isplitl [H1]; · iexact H1
    isplitl [H2]; · iexact H2
    isplitl [H3]; · iexists d3; iexact H3
    iexists d4; iexact H4
  · rw [Phi0_castSucc V c t, PhiS_pos V c _ _ hz]
    iintro ⟨⟨⟨HC, HX, HR⟩, Hg⟩, Ho, ⟨%d0, H0⟩, ⟨%d1, H1⟩, ⟨%d2, H2⟩, ⟨%d3, H3⟩, ⟨%d4, H4⟩⟩
    iapply (run0_A c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) ((dat0 V c).before 3 t d3) ((dat0 V c).before 4 t d4) _)
    isplitl [H0]; · iexact H0
    isplitl [H1]; · iexact H1
    isplitl [H2]; · iexact H2
    isplitl [H3]; · iexact H3
    isplitl [H4]; · iexact H4
    isplitl [HC]; · iexists _; iexact HC
    isplitl [HX]; · iexists _; iexact HX
    iintro ⟨H0, H1, H2, H3, H4, HC, HX⟩
    isplitl [HC HX HR Hg]
    · isplitl [HC HX HR]
      · isplitl [HC]; · iexact HC
        isplitl [HX]; · iexact HX
        iexact HR
      iexact Hg
    isplitl [Ho]; · iexact Ho
    isplitl [H0]; · iexact H0
    isplitl [H1]; · iexact H1
    isplitl [H2]; · iexact H2
    isplitl [H3]; · iexists d3; iexact H3
    iexists d4; iexact H4

set_option maxHeartbeats 1000000 in
/-- A point with `0 < s < 15`: both accumulators step from what the point before left; the two outputs are idle
    and keep what they were handed. -/
theorem sound_body0_B (c : Dev nD) (t : Fin cfg0.N) (h0 : ¬t.val % 16 = 0) (h1 : ¬t.val % 16 = 15) :
    bodyPre0 V c t ⊢ wp frame (wpE (defs₀ (F := F)) Variants.none c none) Set.univ (bodyAt0 t) (fun _ => bodyPost0 V c t) := by
  have hz : t.val ≠ 0 := fun h => h0 (by rw [h])
  have hc0 : ¬cond0_0 (grid0.coords t) := fun h => h0 ((hcond0_0 t).mp h)
  have hc1 : ¬cond0_1 (grid0.coords t) := fun h => h1 ((hcond0_1 t).mp h)
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (cur0_0 t) fullShare ((dat0 V c).after 0 t) from by
    unfold Dat.leavesExact; rw [liveAt0_0 t], after0_0]
  rw [show (dat0 V c).leavesExact 1 t = owns (c : Thread nD τ) (cur0_1 t) fullShare ((dat0 V c).after 1 t) from by
    unfold Dat.leavesExact; rw [liveAt0_1 t], after0_1]
  rw [show (dat0 V c).leavesExact 2 t = owns (c : Thread nD τ) (cur0_2 t) fullShare ((dat0 V c).after 2 t) from by
    unfold Dat.leavesExact; rw [liveAt0_2 t], after0_2]
  rw [Dat.leavesExact_idle (dat0 V c) 3 t (idleAt0_3 t hc1) (noFlush0_3 t hc1)]
  rw [Dat.leavesExact_idle (dat0 V c) 4 t (idleAt0_4 t hc1) (noFlush0_4 t hc1)]
  rw [accAt_step V c t h0]
  dsimp only
  rw [Phi0_castSucc V c t, PhiS_pos V c _ _ hz]
  iintro ⟨⟨⟨HC, HX, HR⟩, Hg⟩, Ho, ⟨%d0, H0⟩, ⟨%d1, H1⟩, ⟨%d2, H2⟩, ⟨%d3, H3⟩, ⟨%d4, H4⟩⟩
  iapply (run0_B c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) ((dat0 V c).before 3 t d3) ((dat0 V c).before 4 t d4) (accAt V c (t.val - 1) (Nat.lt_of_le_of_lt (Nat.sub_le _ _) t.isLt)).1 (accAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexact H4
  isplitl [HC]; · iexact HC
  isplitl [HX]; · iexact HX
  iintro ⟨H0, H1, H2, H3, H4, HC, HX⟩
  isplitl [HC HX HR Hg]
  · isplitl [HC HX HR]
    · isplitl [HC]; · iexact HC
      isplitl [HX]; · iexact HX
      iexact HR
    iexact Hg
  isplitl [Ho]; · iexact Ho
  isplitl [H0]; · iexact H0
  isplitl [H1]; · iexact H1
  isplitl [H2]; · iexact H2
  isplitl [H3]; · iexists d3; iexact H3
  iexists d4; iexact H4

set_option maxHeartbeats 1000000 in
/-- A point with `s = 15`: both accumulators step from what the point before left, and each output's buffer,
    whatever it held, ends at the finished sum re-laid. -/
theorem sound_body0_C (c : Dev nD) (t : Fin cfg0.N) (h1 : t.val % 16 = 15) :
    bodyPre0 V c t ⊢ wp frame (wpE (defs₀ (F := F)) Variants.none c none) Set.univ (bodyAt0 t) (fun _ => bodyPost0 V c t) := by
  have h0 : ¬t.val % 16 = 0 := by omega
  have hz : t.val ≠ 0 := fun h => h0 (by rw [h])
  have hc0 : ¬cond0_0 (grid0.coords t) := fun h => h0 ((hcond0_0 t).mp h)
  have hc1 : cond0_1 (grid0.coords t) := (hcond0_1 t).mpr h1
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (cur0_0 t) fullShare ((dat0 V c).after 0 t) from by
    unfold Dat.leavesExact; rw [liveAt0_0 t], after0_0]
  rw [show (dat0 V c).leavesExact 1 t = owns (c : Thread nD τ) (cur0_1 t) fullShare ((dat0 V c).after 1 t) from by
    unfold Dat.leavesExact; rw [liveAt0_1 t], after0_1]
  rw [show (dat0 V c).leavesExact 2 t = owns (c : Thread nD τ) (cur0_2 t) fullShare ((dat0 V c).after 2 t) from by
    unfold Dat.leavesExact; rw [liveAt0_2 t], after0_2]
  rw [show (dat0 V c).leavesExact 3 t = owns (c : Thread nD τ) (cur0_3 t) fullShare ((dat0 V c).after 3 t) from by
    unfold Dat.leavesExact; rw [liveAt0_3 t hc1], after0_3]
  rw [show (dat0 V c).leavesExact 4 t = owns (c : Thread nD τ) (cur0_4 t) fullShare ((dat0 V c).after 4 t) from by
    unfold Dat.leavesExact; rw [liveAt0_4 t hc1], after0_4]
  rw [accAt_step V c t h0]
  dsimp only
  rw [Phi0_castSucc V c t, PhiS_pos V c _ _ hz]
  iintro ⟨⟨⟨HC, HX, HR⟩, Hg⟩, Ho, ⟨%d0, H0⟩, ⟨%d1, H1⟩, ⟨%d2, H2⟩, ⟨%d3, H3⟩, ⟨%d4, H4⟩⟩
  iapply (run0_C c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) (accAt V c (t.val - 1) (Nat.lt_of_le_of_lt (Nat.sub_le _ _) t.isLt)).1 (accAt V c (t.val - 1) (Nat.lt_of_le_of_lt (Nat.sub_le _ _) t.isLt)).2 _)
  isplitl [H0]; · iexact H0
  isplitl [H1]; · iexact H1
  isplitl [H2]; · iexact H2
  isplitl [H3]; · iexists _; iexact H3
  isplitl [H4]; · iexists _; iexact H4
  isplitl [HC]; · iexact HC
  isplitl [HX]; · iexact HX
  iintro ⟨H0, H1, H2, H3, H4, HC, HX⟩
  isplitl [HC HX HR Hg]
  · isplitl [HC HX HR]
    · isplitl [HC]; · iexact HC
      isplitl [HX]; · iexact HX
      iexact HR
    iexact Hg
  isplitl [Ho]; · iexact Ho
  isplitl [H0]; · iexact H0
  isplitl [H1]; · iexact H1
  isplitl [H2]; · iexact H2
  isplitl [H3]; · iexact H3
  iexact H4

/-- The body at any point: its case is read off `t % 16`. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h1 : t.val % 16 = 15
    · exact sound_body0_C V c t h1
    · exact sound_body0_B V c t h0 h1

/-- The body obligation at every point: by the point's case (`t % 16`), the matching run of the body. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the starting one back: the accumulators' contents are forgotten. -/
theorem hout0 (c : Dev nD) : (dat0 V c).Φ (Fin.last cfg0.N) ⊢ Pipeline.ΦA spec0 c := by
  have hN : cfg0.N = 64 := N_0
  have ht : (Fin.last cfg0.N).val ≠ 0 := by rw [Fin.val_last]; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HC, HX, HR⟩, Hg⟩
  isplitl [HC HX HR]
  · isplitl [HC]; · iexists _; iexact HC
    isplitl [HX]; · iexists _; iexact HX
    iexact HR
  iexact Hg

end AtV

end Cert.Kernel.Hand

end
-- ==== Proof.K.R1Body.lean ====
/-
  The map kernel's body on whole staging memrefs: it leaves its four input blocks as found and its output block at
  the row-softmax formula of them.
-/
import proofs.«169305_j78357383348331_1_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-buffer rectangles start at the zero offsets, in rank three and in rank two. -/
private theorem hz3 : (![0, 0, 0] : Fin 3 → Nat) = fun _ => 0 := funext fun a => by fin_cases a <;> rfl
private theorem hz2 : (![0, 0] : Fin 2 → Nat) = fun _ => 0 := funext fun a => by fin_cases a <;> rfl

set_option maxHeartbeats 1000000 in
theorem run1 (c : Dev nD) (E : Set ℕ) (i : grid1.Coords) (arg2 : Memref sig .tc .vmem S1x512x1024 .f32) (harg2 : arg2.IsWhole) (arg3 : Memref sig .tc .vmem S1024x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole)
    (x0 : Vec F S1x512x1024 .f32) (x1 : Vec F S1024x1024 .f32) (x2 x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outO x0 x1 x2 x3)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%d4, %f4, %hf4, H4⟩, Hk⟩
  obtain rfl := harg2.eq_unread hf0; obtain rfl := harg3.eq_unread hf1; obtain rfl := harg4.eq_unread hf2; obtain rfl := harg5.eq_unread hf3
  obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  -- the one store is through the whole-buffer rectangle, so it covers, and what the buffer then reads is its payload
  rw [View.read_writes_eq_canon _ _ _ (fun y => ⟨_, List.mem_singleton_self _, View.mem_set_unit_zero hz3 inb_S1x512x1024_S1x512x1024_0_0_0 y⟩),
    View.canon_unit_zero hz3]
  -- each load through a whole-buffer rectangle reads the buffer's contents
  simp only [View.readAt_eq_ld, harg2.read_unread, harg3.read_unread, harg4.read_unread, harg5.read_unread,
    View.ld_unit_zero (S := S1x512x1024) hz3, View.ld_unit_zero (S := S1024x1024) hz2,
    View.ld_unit_zero (S := S1x1024x1024) hz3]
  rfl

end Cert.Kernel.Hand

end
-- ==== Proof.K.Dat1.lean ====
/-
  The proof data of the map region at the contents `V` it is entered from: its four inputs hold their blocks at
  every point (the filter is fetched once, the two batch matrices once per batch), and its output block is the
  row-softmax formula of them.
-/
import proofs.«169305_j78357383348331_1_alg».proof.Proof.K.R1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outO (qb1 V c t) (wb1 V c t) (cb1 V c t) (xb1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outO (qb1 V c t) (wb1 V c t) (cb1 V c t) (xb1 V c t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point `t`: the invariant, what the core owes, and each window's current staging
    buffer, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the four inputs' buffers hold their blocks, so the body's run applies at those blocks;
    it returns the inputs as found and the output at the formula of them. The invariant and the debt are the same
    at `t` and at its successor and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run1 c Set.univ _ _ _ _ _ _ _ _ _ _ _ (qb1 V c t) (wb1 V c t) (cb1 V c t) (xb1 V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point: the inputs' buffers hold their blocks, so the body's run applies. -/
theorem body_obligation1 (c : Dev nD) : BodyObligation (dat1 (F := F) V c) (defs₀ (F := F)) Variants.none () Set.univ := fun t => by
  rw [bigSep_W1, bigSep_W1]
  exact sound_body1 V c t

end AtV

end Cert.Kernel.Hand

end
-- ==== Proof.K.Vals.lean ====
/-
  The contents of the core's buffers at each region boundary: as launched; after the accumulating region (its two
  outputs hold what its write-backs leave, everything else is as before); after the map region (likewise).
-/
import proofs.«169305_j78357383348331_1_alg».proof.Proof.K.Dat0
import proofs.«169305_j78357383348331_1_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! What region 1 is entered from, buffer by buffer: the query and the filter as launched, the two batch matrices
    as region 0 wrote them. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg2 (c : Dev nD) : V1 m c main_arg2 = m ((c : Thread nD τ).loc main_arg2) :=
  (W1_arr m c 2).trans (((dat0 (V0 m) c).arrAt_in 2 rfl _).trans (A_eq0 (V0 m) c 2))
theorem V1_main_arg3 (c : Dev nD) : V1 m c main_arg3 = m ((c : Thread nD τ).loc main_arg3) :=
  W1_of_ne m c main_arg3 (by decide)
theorem V1_main_v0_0 (c : Dev nD) : V1 m c main_v0_0 = (dat0 (V0 m) c).arrAt 3 cfg0.N := W1_arr m c 3
theorem V1_main_v0_1 (c : Dev nD) : V1 m c main_v0_1 = (dat0 (V0 m) c).arrAt 4 cfg0.N := W1_arr m c 4

/-! What the program ends with: the arguments as launched, the result as region 1 wrote it. -/
theorem W2_main_v1 (c : Dev nD) : W2 m c (Proc.devRef .tc main_v1) = (dat1 (V1 m) c).arrAt 4 cfg1.N := W2_arr m c 4
theorem W2_main_arg0 (c : Dev nD) : W2 m c (Proc.devRef .tc main_arg0) = m ((c : Thread nD τ).loc main_arg0) :=
  (W2_arr m c 0).trans (((dat1 (V1 m) c).arrAt_in 0 rfl _).trans ((A_eq1 (V1 m) c 0).trans (V1_main_arg0 m c)))
theorem W2_main_arg3 (c : Dev nD) : W2 m c (Proc.devRef .tc main_arg3) = m ((c : Thread nD τ).loc main_arg3) :=
  (W2_arr m c 1).trans (((dat1 (V1 m) c).arrAt_in 1 rfl _).trans ((A_eq1 (V1 m) c 1).trans (V1_main_arg3 m c)))
theorem W2_main_arg1 (c : Dev nD) : W2 m c (Proc.devRef .tc main_arg1) = m ((c : Thread nD τ).loc main_arg1) :=
  (W2_of_ne m c main_arg1 (by decide)).trans (V1_main_arg1 m c)
theorem W2_main_arg2 (c : Dev nD) : W2 m c (Proc.devRef .tc main_arg2) = m ((c : Thread nD τ).loc main_arg2) :=
  (W2_of_ne m c main_arg2 (by decide)).trans (V1_main_arg2 m c)

end Cert.Kernel.Hand

end
-- ==== Proof.K.Run.lean ====
/-
  The run of the whole program: its two regions in order, each entered from what the one before left, and the
  result and the arguments read off the last boundary's contents.
-/
import proofs.«169305_j78357383348331_1_alg».proof.Proof.K.Vals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 as a segment: entered with every unscoped buffer at the contents before it, left with them at the contents
    after it. Its windows' arrays are split out of the unscoped buffers on entry and joined back, at what the
    write-backs leave, on exit; the generator register passes through the region's invariant; nothing is owed and the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it. Its windows' arrays are split out of the unscoped buffers on entry and joined back, at what the
    write-backs leave, on exit; the generator register passes through the region's invariant; nothing is owed and the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters, every weakly fair execution of @main terminates, nothing faulting, and the
    final memory holds every unscoped buffer at the last boundary's contents: the result at what region 1 wrote,
    each argument as launched. -/
theorem run_main : θ_run defs (onTc (τ := τ) (main (F := F))) ⟨m, fun _ => 0, ρ⟩ (fun r => ∀ c : Dev nD,
      r.2.mem ((c.tc : Thread nD τ).loc main_v1) = W2 m c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨h c _ (mem_uc main_v1 (by decide)),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KI.Defs.lean ====
/-
  Region by region, what the two kernels compute, as pure functions of the blocks the pipeline hands them.

  Region 0 walks a 4 × 16 grid (batch b, S-block s; point t = 16·b + s). At each point it adds the block products
  qᵀk and kᵀv (contracting the 256 rows of the S-block) to two 1024 × 1024 accumulators kept in scratch memory, which it
  zeroes when s = 0 and writes out, re-laid as 1 × 1024 × 1024, when s = 15. Region 1 walks a 4 × 8 grid and maps each
  512-row block of the query through (q·w)·C, a row softmax, and ·X.
-/
import proofs.«169305_j78357383348331_1_alg».proof.Proof.Gen.KernelIdeal.Launch
import proofs.«169305_j78357383348331_1_alg».proof.Proof.Gen.KernelIdeal.Skeleton
import proofs.«169305_j78357383348331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 0: the accumulating kernel -/

/-- One accumulation step of the first accumulator: `a + x0ᵀ·x1`, the product contracting the block's 256 rows. -/
def stepC (x0 x1 : Vec F S1x256x1024 .f32) (a : Vec F S1024x1024 .f32) : Vec F S1024x1024 .f32 := k0_pay4 x0 x1 a
/-- One accumulation step of the second accumulator: `a + x1ᵀ·x2`. -/
def stepX (x1 x2 : Vec F S1x256x1024 .f32) (a : Vec F S1024x1024 .f32) : Vec F S1024x1024 .f32 := k0_pay5 x1 x2 a
/-- The zero matrix each accumulator is reset to at the first S-block of a batch. -/
def zeroC : Vec F S1024x1024 .f32 := k0_pay1
def zeroX : Vec F S1024x1024 .f32 := k0_pay2
/-- What is written out of an accumulator at the last S-block of a batch: its format changed, one unit axis added. -/
def outC (a : Vec F S1024x1024 .f32) : Vec F S1x1024x1024 .bf16 := k0_pay6 a
def outX (a : Vec F S1024x1024 .f32) : Vec F S1x1024x1024 .bf16 := k0_pay7 a

/-- The reset condition (`s = 0`) and the write-out condition (`s = 15`) as the kernel computes them. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- The inputs are never idle; the two outputs are idle, and not written back, exactly away from `s = 15`. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-- The two scratch accumulators as memrefs. -/
abbrev scC : Memref sig .tc .vmem S1024x1024 .f32 := Memref.whole cc0_scratch0
abbrev scX : Memref sig .tc .vmem S1024x1024 .f32 := Memref.whole cc0_scratch1

section AtV
-- the TensorCore's buffer contents when a region is entered
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query, key and value blocks of point `t`, at their literal type. -/
abbrev qb (c : Dev nD) (t : Fin cfg0.N) : Vec F S1x256x1024 .f32 := iblk0 V c 0 t
abbrev kb (c : Dev nD) (t : Fin cfg0.N) : Vec F S1x256x1024 .f32 := iblk0 V c 1 t
abbrev vb (c : Dev nD) (t : Fin cfg0.N) : Vec F S1x256x1024 .f32 := iblk0 V c 2 t

/-- Both accumulators after point `n`: the step applied to zero at the first S-block of a batch, else to what the
    point before left. -/
def accAt (c : Dev nD) : (n : ℕ) → n < cfg0.N → Vec F S1024x1024 .f32 × Vec F S1024x1024 .f32
  | 0, hn => (stepC (qb V c ⟨0, hn⟩) (kb V c ⟨0, hn⟩) zeroC, stepX (kb V c ⟨0, hn⟩) (vb V c ⟨0, hn⟩) zeroX)
  | n + 1, hn =>
    if (n + 1) % 16 = 0 then
      (stepC (qb V c ⟨n + 1, hn⟩) (kb V c ⟨n + 1, hn⟩) zeroC, stepX (kb V c ⟨n + 1, hn⟩) (vb V c ⟨n + 1, hn⟩) zeroX)
    else
      (stepC (qb V c ⟨n + 1, hn⟩) (kb V c ⟨n + 1, hn⟩) (accAt c n (Nat.lt_of_succ_lt hn)).1,
       stepX (kb V c ⟨n + 1, hn⟩) (vb V c ⟨n + 1, hn⟩) (accAt c n (Nat.lt_of_succ_lt hn)).2)

/-- At the first S-block of a batch the accumulators start from zero. -/
theorem accAt_reset (c : Dev nD) (t : Fin cfg0.N) (h : t.val % 16 = 0) :
    accAt V c t.val t.isLt = (stepC (qb V c t) (kb V c t) zeroC, stepX (kb V c t) (vb V c t) zeroX) := by
  obtain ⟨n, hn⟩ := t
  cases n with
  | zero => rfl
  | succ n => exact if_pos h

/-- At every other point they continue from what the point before left. -/
theorem accAt_step (c : Dev nD) (t : Fin cfg0.N) (h : ¬t.val % 16 = 0) :
    accAt V c t.val t.isLt = (stepC (qb V c t) (kb V c t) (accAt V c (t.val - 1) (Nat.lt_of_le_of_lt (Nat.sub_le _ _) t.isLt)).1,
      stepX (kb V c t) (vb V c t) (accAt V c (t.val - 1) (Nat.lt_of_le_of_lt (Nat.sub_le _ _) t.isLt)).2) := by
  obtain ⟨n, hn⟩ := t
  cases n with
  | zero => exact absurd (Nat.zero_mod _) h
  | succ n => exact if_neg h

/-! ## Region 1: the map kernel -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, the filter, and the two batch matrices of point `t`, at their literal types. -/
abbrev qb1 (c : Dev nD) (t : Fin cfg1.N) : Vec F S1x512x1024 .f32 := iblk1 V c 0 t
abbrev wb1 (c : Dev nD) (t : Fin cfg1.N) : Vec F S1024x1024 .f32 := iblk1 V c 1 t
abbrev cb1 (c : Dev nD) (t : Fin cfg1.N) : Vec F S1x1024x1024 .bf16 := iblk1 V c 2 t
abbrev xb1 (c : Dev nD) (t : Fin cfg1.N) : Vec F S1x1024x1024 .bf16 := iblk1 V c 3 t

end AtV

/-- The block region 1 stores: `softmax((x0·x1)·x2)·x3` row by row. -/
def outO (x0 : Vec F S1x512x1024 .f32) (x1 : Vec F S1024x1024 .f32) (x2 x3 : Vec F S1x1024x1024 .bf16) : Vec F S1x512x1024 .f32 :=
  k1_pay1 x0 x1 x2 x3

end Cert.KernelIdeal.Hand

end
-- ==== Proof.KI.R0Body.lean ====
/-
  The accumulating kernel's body, run once in each of its three control cases on whole staging memrefs:
  at the first S-block of a batch (both accumulators reset, then stepped), in the middle (stepped), and at the last
  S-block (stepped, then written out). Each run leaves the three input blocks as found and the accumulators at
  the step of what they held.
-/
import proofs.«169305_j78357383348331_1_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole rectangle are all zero, on two axes and on three. -/
private theorem off2 : (![0, 0] : Fin 2 → ℕ) = fun _ => 0 := funext fun a => by fin_cases a <;> rfl
private theorem off3 : (![0, 0, 0] : Fin 3 → ℕ) = fun _ => 0 := funext fun a => by fin_cases a <;> rfl

/-- An input block held whole, read through its whole rectangle, is the block. -/
private theorem load_in {m : Memref sig .tc .vmem S1x256x1024 .f32} (h : m.IsWhole) (X : Vec F S1x256x1024 .f32) :
    View.readAt (Elt F) m.view (Rect.unit (s := S1x256x1024) ![0, 0, 0] S1x256x1024.size inb_S1x256x1024_S1x256x1024_0_0_0).toLoadRect (h.unread X) = X := by
  rw [View.readAt_eq_ld, h.read_unread, View.ld_unit_zero (S := S1x256x1024) off3]

/-- An accumulator held whole, read through its whole rectangle, is what it holds. -/
private theorem load_acc {m : Memref sig .tc .vmem S1024x1024 .f32} (h : m.IsWhole) (X : Vec F S1024x1024 .f32) :
    View.readAt (Elt F) m.view (Rect.unit (s := S1024x1024) ![0, 0] S1024x1024.size inb_S1024x1024_S1024x1024_0_0).toLoadRect (h.unread X) = X := by
  rw [View.readAt_eq_ld, h.read_unread, View.ld_unit_zero (S := S1024x1024) off2]

/-- An accumulator whose last store filled its whole rectangle reads as that store's payload, whatever came before. -/
private theorem read_store_acc (v : View sig .tc .vmem S1024x1024 .f32) (f : v.ty.Contents (Elt F)) (w : Vec F S1024x1024 .f32)
    (L : List (View.Piece (Elt F) S1024x1024 .f32)) :
    v.read (Elt F) (v.writes (Elt F) f (⟨Rect.unit (s := S1024x1024) ![0, 0] S1024x1024.size inb_S1024x1024_S1024x1024_0_0, w⟩ :: L)) = w := by
  rw [View.read_writes_eq_canon _ _ _ (fun y => ⟨_, List.mem_cons_self .., View.mem_set_unit_zero off2 inb_S1024x1024_S1024x1024_0_0 y⟩)]
  exact View.canon_cons_unit_zero off2 _ w L

/-- The same for an output block. -/
private theorem read_store_out (v : View sig .tc .vmem S1x1024x1024 .bf16) (f : v.ty.Contents (Elt F)) (w : Vec F S1x1024x1024 .bf16)
    (L : List (View.Piece (Elt F) S1x1024x1024 .bf16)) :
    v.read (Elt F) (v.writes (Elt F) f (⟨Rect.unit (s := S1x1024x1024) ![0, 0, 0] S1x1024x1024.size inb_S1x1024x1024_S1x1024x1024_0_0_0, w⟩ :: L)) = w := by
  rw [View.read_writes_eq_canon _ _ _ (fun y => ⟨_, List.mem_cons_self .., View.mem_set_unit_zero off3 inb_S1x1024x1024_S1x1024x1024_0_0_0 y⟩)]
  exact View.canon_cons_unit_zero off3 _ w L

set_option maxHeartbeats 1000000 in
/-- First S-block of a batch: whatever the accumulators held, they end at one step from zero; the outputs are untouched. -/
theorem run0_A (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : cond0_0 i) (hc1 : ¬cond0_1 i)
    (x0 x1 x2 : Vec F S1x256x1024 .f32) (d5 d6 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6
        ∗ (∃ a, owns (c : Thread nD τ) arg7 fullShare a) ∗ (∃ a, owns (c : Thread nD τ) arg8 fullShare a)
        ∗ (iprop(owns (c : Thread nD τ) arg2 fullShare x0 ∗ owns (c : Thread nD τ) arg3 fullShare x1 ∗ owns (c : Thread nD τ) arg4 fullShare x2
            ∗ owns (c : Thread nD τ) arg5 fullShare d5 ∗ owns (c : Thread nD τ) arg6 fullShare d6
            ∗ owns (c : Thread nD τ) arg7 fullShare (stepC x0 x1 zeroC) ∗ owns (c : Thread nD τ) arg8 fullShare (stepX x1 x2 zeroX)) -∗ K ⟨⟩))
      ⊢ wp frame (wpE (defs₀ (F := F)) Variants.none c none) E (cc0__kernel1 i arg2 harg2 arg3 harg3 arg4 harg4 arg5 harg5 arg6 harg6 arg7 harg7 arg8 harg8) K := by
  simp only [cc0__kernel1_eq_skeleton]; unfold cc0__kernel1_skel
  unfold owns
  iintro ⟨⟨%f2, %hf2, H2⟩, ⟨%f3, %hf3, H3⟩, ⟨%f4, %hf4, H4⟩, ⟨%f5, %hf5, H5⟩, ⟨%f6, %hf6, H6⟩, ⟨%a7, %f7, -, H7⟩, ⟨%a8, %f8, -, H8⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    rw [read_store_acc]
    sl_unfold_run_names
    rw [View.readCov_cons_toLoadRect, load_in harg2, load_in harg3]; rfl
  iexists _; isplitr
  swap; · iexact H8
  ipureintro
  rw [read_store_acc]
  sl_unfold_run_names
  rw [View.readCov_cons_toLoadRect, load_in harg3, load_in harg4]; rfl

set_option maxHeartbeats 1000000 in
/-- A middle S-block: the accumulators step from what they held; the outputs are untouched. -/
theorem run0_B (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : ¬cond0_1 i)
    (x0 x1 x2 : Vec F S1x256x1024 .f32) (d5 d6 : Vec F S1x1024x1024 .bf16) (a7 a8 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare d5 ∗ owns (c : Thread nD τ) arg6 fullShare d6
            ∗ owns (c : Thread nD τ) arg7 fullShare (stepC x0 x1 a7) ∗ owns (c : Thread nD τ) arg8 fullShare (stepX x1 x2 a8)) -∗ K ⟨⟩))
      ⊢ wp frame (wpE (defs₀ (F := F)) Variants.none c none) E (cc0__kernel1 i arg2 harg2 arg3 harg3 arg4 harg4 arg5 harg5 arg6 harg6 arg7 harg7 arg8 harg8) K := by
  simp only [cc0__kernel1_eq_skeleton]; unfold cc0__kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    rw [read_store_acc, load_in harg2, load_in harg3, load_acc harg7]; rfl
  iexists _; isplitr
  swap; · iexact H8
  ipureintro
  rw [read_store_acc, load_in harg3, load_in harg4, load_acc harg8]; rfl

set_option maxHeartbeats 1000000 in
/-- The last S-block of a batch: the accumulators step, and each is written out into its output buffer. -/
theorem run0_C (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : cond0_1 i)
    (x0 x1 x2 : Vec F S1x256x1024 .f32) (a7 a8 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare (outC (stepC x0 x1 a7)) ∗ owns (c : Thread nD τ) arg6 fullShare (outX (stepX x1 x2 a8))
            ∗ owns (c : Thread nD τ) arg7 fullShare (stepC x0 x1 a7) ∗ owns (c : Thread nD τ) arg8 fullShare (stepX x1 x2 a8)) -∗ K ⟨⟩))
      ⊢ wp frame (wpE (defs₀ (F := F)) Variants.none c none) E (cc0__kernel1 i arg2 harg2 arg3 harg3 arg4 harg4 arg5 harg5 arg6 harg6 arg7 harg7 arg8 harg8) K := by
  simp only [cc0__kernel1_eq_skeleton]; unfold cc0__kernel1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_store_out]
    sl_unfold_run_names
    rw [View.readCov_cons_toLoadRect, load_in harg2, load_in harg3, load_acc harg7]; rfl
  isplitl [H6]
  · iexists _; isplitr
    swap; · iexact H6
    ipureintro
    rw [read_store_out]
    sl_unfold_run_names
    rw [View.readCov_cons_toLoadRect, load_in harg3, load_in harg4, load_acc harg8]; rfl
  isplitl [H7]
  · iexists _; isplitr
    swap; · iexact H7
    ipureintro
    sl_unfold_run_names
    rw [read_store_acc, load_in harg2, load_in harg3, load_acc harg7]; rfl
  iexists _; isplitr
  swap; · iexact H8
  ipureintro
  sl_unfold_run_names
  rw [read_store_acc, load_in harg3, load_in harg4, load_acc harg8]; rfl

end Cert.KernelIdeal.Hand

end
-- ==== Proof.KI.Dat0.lean ====
/-
  The proof data of the accumulating region at the contents `V` it is entered from: its three inputs hold their
  blocks at every point; between points the two scratch accumulators hold the partial sums `accAt`; the two outputs
  are written only at the last S-block of a batch, with the finished sums.
-/
import proofs.«169305_j78357383348331_1_alg».proof.Proof.KI.R0Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-- An input window's current staging buffer holds its block at every point (each is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The core's scoped buffers that region 0 does not use (the other region's staging buffers), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's starting invariant spelled out: both accumulators at some contents, the unused scoped buffers, the
    generator register at some state. -/
theorem PhiA0_eq (c : Dev nD) :
    (Pipeline.ΦA spec0 c : sProp 𝕄)
      = iprop(((∃ d, owns (c : Thread nD τ) scC fullShare d) ∗ (∃ d, owns (c : Thread nD τ) scX fullShare d) ∗ restS (F := F) c) ∗ (∃ r, prngReg c r)) := by
  unfold Pipeline.ΦA restS; rw [scopedRest0_eq]; simp only [scC, scX, owns_whole]; try rfl

/-- The invariant before point `n`: at the start the accumulators hold anything; afterwards they hold the partial
    sums the point before left. -/
def PhiS (c : Dev nD) : (n : ℕ) → n ≤ cfg0.N → sProp 𝕄
  | 0, _ => Pipeline.ΦA spec0 c
  | n + 1, hn => iprop((owns (c : Thread nD τ) scC fullShare (accAt V c n hn).1 ∗ owns (c : Thread nD τ) scX fullShare (accAt V c n hn).2 ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scC fullShare (accAt V c n hn).1 ∗ owns (c : Thread nD τ) scX fullShare (accAt V c n hn).2 ∗ restS (F := F) c) ∗ (∃ r, prngReg c r)) := rfl
theorem PhiS_pos (c : Dev nD) (n : ℕ) (h : n ≤ cfg0.N) (hz : n ≠ 0) :
    PhiS V c n h = iprop((owns (c : Thread nD τ) scC fullShare (accAt V c (n - 1) (by omega)).1 ∗ owns (c : Thread nD τ) scX fullShare (accAt V c (n - 1) (by omega)).2 ∗ restS (F := F) c) ∗ (∃ r, prngReg c r)) := by
  cases n with
  | zero => exact absurd rfl hz
  | succ n => rfl

/-- The proof data of pipeline 0 on core `c`. An output's `after` is consulted only where it is written back. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outC (accAt V c t.val t.isLt).1
    | ⟨4, _⟩ => outX (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outC (accAt V c t.val t.isLt).1 := by dsimp only [dat0]
theorem after0_4 (c : Dev nD) (t : Fin cfg0.N) : (dat0 V c).after 4 t = outX (accAt V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Each window's current staging memref at point `t`, at its literal type, and its wholeness. -/
abbrev cur0_0 (t : Fin cfg0.N) : Memref sig .tc .vmem S1x256x1024 .f32 := win0_0.stage (cfg0.slots t 0)
abbrev cur0_0_whole (t : Fin cfg0.N) : (cur0_0 t).IsWhole := hstage0_0 ((cfg0.slots t 0).cast nbuf0_0)
abbrev cur0_1 (t : Fin cfg0.N) : Memref sig .tc .vmem S1x256x1024 .f32 := win0_1.stage (cfg0.slots t 1)
abbrev cur0_1_whole (t : Fin cfg0.N) : (cur0_1 t).IsWhole := hstage0_1 ((cfg0.slots t 1).cast nbuf0_1)
abbrev cur0_2 (t : Fin cfg0.N) : Memref sig .tc .vmem S1x256x1024 .f32 := win0_2.stage (cfg0.slots t 2)
abbrev cur0_2_whole (t : Fin cfg0.N) : (cur0_2 t).IsWhole := hstage0_2 ((cfg0.slots t 2).cast nbuf0_2)
abbrev cur0_3 (t : Fin cfg0.N) : Memref sig .tc .vmem S1x1024x1024 .bf16 := win0_3.stage (cfg0.slots t 3)
abbrev cur0_3_whole (t : Fin cfg0.N) : (cur0_3 t).IsWhole := hstage0_3 ((cfg0.slots t 3).cast nbuf0_3)
abbrev cur0_4 (t : Fin cfg0.N) : Memref sig .tc .vmem S1x1024x1024 .bf16 := win0_4.stage (cfg0.slots t 4)
abbrev cur0_4_whole (t : Fin cfg0.N) : (cur0_4 t).IsWhole := hstage0_4 ((cfg0.slots t 4).cast nbuf0_4)

/-- What the body is handed at point `t`: the invariant before the point, what the core owes, and each window's
    current buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (cur0_0 t) fullShare ((dat0 V c).before 0 t d))
    ∗ (∃ d, owns (c : Thread nD τ) (cur0_1 t) fullShare ((dat0 V c).before 1 t d))
    ∗ (∃ d, owns (c : Thread nD τ) (cur0_2 t) fullShare ((dat0 V c).before 2 t d))
    ∗ (∃ d, owns (c : Thread nD τ) (cur0_3 t) fullShare ((dat0 V c).before 3 t d))
    ∗ (∃ d, owns (c : Thread nD τ) (cur0_4 t) fullShare ((dat0 V c).before 4 t d)))

/-- What it hands back: the invariant before the next point, what the core owes, and each window's current buffer
    at what the point leaves in it. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1000000 in
/-- A point with `s = 0`: both accumulators, whatever they held, end one step from zero; the two outputs are idle
    and keep what they were handed. -/
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  have h1 : ¬t.val % 16 = 15 := by omega
  have hc0 : cond0_0 (grid0.coords t) := (hcond0_0 t).mpr h0
  have hc1 : ¬cond0_1 (grid0.coords t) := fun h => h1 ((hcond0_1 t).mp h)
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (cur0_0 t) fullShare ((dat0 V c).after 0 t) from by
    unfold Dat.leavesExact; rw [liveAt0_0 t], after0_0]
  rw [show (dat0 V c).leavesExact 1 t = owns (c : Thread nD τ) (cur0_1 t) fullShare ((dat0 V c).after 1 t) from by
    unfold Dat.leavesExact; rw [liveAt0_1 t], after0_1]
  rw [show (dat0 V c).leavesExact 2 t = owns (c : Thread nD τ) (cur0_2 t) fullShare ((dat0 V c).after 2 t) from by
    unfold Dat.leavesExact; rw [liveAt0_2 t], after0_2]
  rw [Dat.leavesExact_idle (dat0 V c) 3 t (idleAt0_3 t hc1) (noFlush0_3 t hc1)]
  rw [Dat.leavesExact_idle (dat0 V c) 4 t (idleAt0_4 t hc1) (noFlush0_4 t hc1)]
  rw [accAt_reset V c t h0]
  dsimp only
  by_cases hz : t.val = 0
  · rw [Phi0_castSucc V c t, PhiS_zero V c _ _ hz, PhiA0_eq]
    iintro ⟨⟨⟨HC, HX, HR⟩, Hg⟩, Ho, ⟨%d0, H0⟩, ⟨%d1, H1⟩, ⟨%d2, H2⟩, ⟨%d3, H3⟩, ⟨%d4, H4⟩⟩
    iapply (run0_A c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) ((dat0 V c).before 3 t d3) ((dat0 V c).before 4 t d4) _)
    isplitl [H0]; · iexact H0
    isplitl [H1]; · iexact H1
    isplitl [H2]; · iexact H2
    isplitl [H3]; · iexact H3
    isplitl [H4]; · iexact H4
    isplitl [HC]; · iexact HC
    isplitl [HX]; · iexact HX
    iintro ⟨H0, H1, H2, H3, H4, HC, HX⟩
    isplitl [HC HX HR Hg]
    · isplitl [HC HX HR]
      · isplitl [HC]; · iexact HC
        isplitl [HX]; · iexact HX
        iexact HR
      iexact Hg
    isplitl [Ho]; · iexact Ho
    isplitl [H0]; · iexact H0
    isplitl [H1]; · iexact H1
    isplitl [H2]; · iexact H2
    isplitl [H3]; · iexists d3; iexact H3
    iexists d4; iexact H4
  · rw [Phi0_castSucc V c t, PhiS_pos V c _ _ hz]
    iintro ⟨⟨⟨HC, HX, HR⟩, Hg⟩, Ho, ⟨%d0, H0⟩, ⟨%d1, H1⟩, ⟨%d2, H2⟩, ⟨%d3, H3⟩, ⟨%d4, H4⟩⟩
    iapply (run0_A c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) ((dat0 V c).before 3 t d3) ((dat0 V c).before 4 t d4) _)
    isplitl [H0]; · iexact H0
    isplitl [H1]; · iexact H1
    isplitl [H2]; · iexact H2
    isplitl [H3]; · iexact H3
    isplitl [H4]; · iexact H4
    isplitl [HC]; · iexists _; iexact HC
    isplitl [HX]; · iexists _; iexact HX
    iintro ⟨H0, H1, H2, H3, H4, HC, HX⟩
    isplitl [HC HX HR Hg]
    · isplitl [HC HX HR]
      · isplitl [HC]; · iexact HC
        isplitl [HX]; · iexact HX
        iexact HR
      iexact Hg
    isplitl [Ho]; · iexact Ho
    isplitl [H0]; · iexact H0
    isplitl [H1]; · iexact H1
    isplitl [H2]; · iexact H2
    isplitl [H3]; · iexists d3; iexact H3
    iexists d4; iexact H4

set_option maxHeartbeats 1000000 in
/-- A point with `0 < s < 15`: both accumulators step from what the point before left; the two outputs are idle
    and keep what they were handed. -/
theorem sound_body0_B (c : Dev nD) (t : Fin cfg0.N) (h0 : ¬t.val % 16 = 0) (h1 : ¬t.val % 16 = 15) :
    bodyPre0 V c t ⊢ wp frame (wpE (defs₀ (F := F)) Variants.none c none) Set.univ (bodyAt0 t) (fun _ => bodyPost0 V c t) := by
  have hz : t.val ≠ 0 := fun h => h0 (by rw [h])
  have hc0 : ¬cond0_0 (grid0.coords t) := fun h => h0 ((hcond0_0 t).mp h)
  have hc1 : ¬cond0_1 (grid0.coords t) := fun h => h1 ((hcond0_1 t).mp h)
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (cur0_0 t) fullShare ((dat0 V c).after 0 t) from by
    unfold Dat.leavesExact; rw [liveAt0_0 t], after0_0]
  rw [show (dat0 V c).leavesExact 1 t = owns (c : Thread nD τ) (cur0_1 t) fullShare ((dat0 V c).after 1 t) from by
    unfold Dat.leavesExact; rw [liveAt0_1 t], after0_1]
  rw [show (dat0 V c).leavesExact 2 t = owns (c : Thread nD τ) (cur0_2 t) fullShare ((dat0 V c).after 2 t) from by
    unfold Dat.leavesExact; rw [liveAt0_2 t], after0_2]
  rw [Dat.leavesExact_idle (dat0 V c) 3 t (idleAt0_3 t hc1) (noFlush0_3 t hc1)]
  rw [Dat.leavesExact_idle (dat0 V c) 4 t (idleAt0_4 t hc1) (noFlush0_4 t hc1)]
  rw [accAt_step V c t h0]
  dsimp only
  rw [Phi0_castSucc V c t, PhiS_pos V c _ _ hz]
  iintro ⟨⟨⟨HC, HX, HR⟩, Hg⟩, Ho, ⟨%d0, H0⟩, ⟨%d1, H1⟩, ⟨%d2, H2⟩, ⟨%d3, H3⟩, ⟨%d4, H4⟩⟩
  iapply (run0_B c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) ((dat0 V c).before 3 t d3) ((dat0 V c).before 4 t d4) (accAt V c (t.val - 1) (Nat.lt_of_le_of_lt (Nat.sub_le _ _) t.isLt)).1 (accAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexact H4
  isplitl [HC]; · iexact HC
  isplitl [HX]; · iexact HX
  iintro ⟨H0, H1, H2, H3, H4, HC, HX⟩
  isplitl [HC HX HR Hg]
  · isplitl [HC HX HR]
    · isplitl [HC]; · iexact HC
      isplitl [HX]; · iexact HX
      iexact HR
    iexact Hg
  isplitl [Ho]; · iexact Ho
  isplitl [H0]; · iexact H0
  isplitl [H1]; · iexact H1
  isplitl [H2]; · iexact H2
  isplitl [H3]; · iexists d3; iexact H3
  iexists d4; iexact H4

set_option maxHeartbeats 1000000 in
/-- A point with `s = 15`: both accumulators step from what the point before left, and each output's buffer,
    whatever it held, ends at the finished sum re-laid. -/
theorem sound_body0_C (c : Dev nD) (t : Fin cfg0.N) (h1 : t.val % 16 = 15) :
    bodyPre0 V c t ⊢ wp frame (wpE (defs₀ (F := F)) Variants.none c none) Set.univ (bodyAt0 t) (fun _ => bodyPost0 V c t) := by
  have h0 : ¬t.val % 16 = 0 := by omega
  have hz : t.val ≠ 0 := fun h => h0 (by rw [h])
  have hc0 : ¬cond0_0 (grid0.coords t) := fun h => h0 ((hcond0_0 t).mp h)
  have hc1 : cond0_1 (grid0.coords t) := (hcond0_1 t).mpr h1
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (cur0_0 t) fullShare ((dat0 V c).after 0 t) from by
    unfold Dat.leavesExact; rw [liveAt0_0 t], after0_0]
  rw [show (dat0 V c).leavesExact 1 t = owns (c : Thread nD τ) (cur0_1 t) fullShare ((dat0 V c).after 1 t) from by
    unfold Dat.leavesExact; rw [liveAt0_1 t], after0_1]
  rw [show (dat0 V c).leavesExact 2 t = owns (c : Thread nD τ) (cur0_2 t) fullShare ((dat0 V c).after 2 t) from by
    unfold Dat.leavesExact; rw [liveAt0_2 t], after0_2]
  rw [show (dat0 V c).leavesExact 3 t = owns (c : Thread nD τ) (cur0_3 t) fullShare ((dat0 V c).after 3 t) from by
    unfold Dat.leavesExact; rw [liveAt0_3 t hc1], after0_3]
  rw [show (dat0 V c).leavesExact 4 t = owns (c : Thread nD τ) (cur0_4 t) fullShare ((dat0 V c).after 4 t) from by
    unfold Dat.leavesExact; rw [liveAt0_4 t hc1], after0_4]
  rw [accAt_step V c t h0]
  dsimp only
  rw [Phi0_castSucc V c t, PhiS_pos V c _ _ hz]
  iintro ⟨⟨⟨HC, HX, HR⟩, Hg⟩, Ho, ⟨%d0, H0⟩, ⟨%d1, H1⟩, ⟨%d2, H2⟩, ⟨%d3, H3⟩, ⟨%d4, H4⟩⟩
  iapply (run0_C c Set.univ (grid0.coords t) (cur0_0 t) (cur0_0_whole t) (cur0_1 t) (cur0_1_whole t) (cur0_2 t) (cur0_2_whole t) (cur0_3 t) (cur0_3_whole t) (cur0_4 t) (cur0_4_whole t) scC (Memref.isWhole_whole _) scX (Memref.isWhole_whole _) hc0 hc1 (qb V c t) (kb V c t) (vb V c t) (accAt V c (t.val - 1) (Nat.lt_of_le_of_lt (Nat.sub_le _ _) t.isLt)).1 (accAt V c (t.val - 1) (Nat.lt_of_le_of_lt (Nat.sub_le _ _) t.isLt)).2 _)
  isplitl [H0]; · iexact H0
  isplitl [H1]; · iexact H1
  isplitl [H2]; · iexact H2
  isplitl [H3]; · iexists _; iexact H3
  isplitl [H4]; · iexists _; iexact H4
  isplitl [HC]; · iexact HC
  isplitl [HX]; · iexact HX
  iintro ⟨H0, H1, H2, H3, H4, HC, HX⟩
  isplitl [HC HX HR Hg]
  · isplitl [HC HX HR]
    · isplitl [HC]; · iexact HC
      isplitl [HX]; · iexact HX
      iexact HR
    iexact Hg
  isplitl [Ho]; · iexact Ho
  isplitl [H0]; · iexact H0
  isplitl [H1]; · iexact H1
  isplitl [H2]; · iexact H2
  isplitl [H3]; · iexact H3
  iexact H4

/-- The body at any point: its case is read off `t % 16`. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h1 : t.val % 16 = 15
    · exact sound_body0_C V c t h1
    · exact sound_body0_B V c t h0 h1

/-- The body obligation at every point: by the point's case (`t % 16`), the matching run of the body. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the starting one back: the accumulators' contents are forgotten. -/
theorem hout0 (c : Dev nD) : (dat0 V c).Φ (Fin.last cfg0.N) ⊢ Pipeline.ΦA spec0 c := by
  have hN : cfg0.N = 64 := N_0
  have ht : (Fin.last cfg0.N).val ≠ 0 := by rw [Fin.val_last]; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HC, HX, HR⟩, Hg⟩
  isplitl [HC HX HR]
  · isplitl [HC]; · iexists _; iexact HC
    isplitl [HX]; · iexists _; iexact HX
    iexact HR
  iexact Hg

end AtV

end Cert.KernelIdeal.Hand

end
-- ==== Proof.KI.R1Body.lean ====
/-
  The map kernel's body on whole staging memrefs: it leaves its four input blocks as found and its output block at
  the row-softmax formula of them.
-/
import proofs.«169305_j78357383348331_1_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-buffer rectangles start at the zero offsets, in rank three and in rank two. -/
private theorem hz3 : (![0, 0, 0] : Fin 3 → Nat) = fun _ => 0 := funext fun a => by fin_cases a <;> rfl
private theorem hz2 : (![0, 0] : Fin 2 → Nat) = fun _ => 0 := funext fun a => by fin_cases a <;> rfl

set_option maxHeartbeats 1000000 in
theorem run1 (c : Dev nD) (E : Set ℕ) (i : grid1.Coords) (arg2 : Memref sig .tc .vmem S1x512x1024 .f32) (harg2 : arg2.IsWhole) (arg3 : Memref sig .tc .vmem S1024x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole)
    (x0 : Vec F S1x512x1024 .f32) (x1 : Vec F S1024x1024 .f32) (x2 x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outO x0 x1 x2 x3)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%d4, %f4, %hf4, H4⟩, Hk⟩
  obtain rfl := harg2.eq_unread hf0; obtain rfl := harg3.eq_unread hf1; obtain rfl := harg4.eq_unread hf2; obtain rfl := harg5.eq_unread hf3
  obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  -- the one store is through the whole-buffer rectangle, so it covers, and what the buffer then reads is its payload
  rw [View.read_writes_eq_canon _ _ _ (fun y => ⟨_, List.mem_singleton_self _, View.mem_set_unit_zero hz3 inb_S1x512x1024_S1x512x1024_0_0_0 y⟩),
    View.canon_unit_zero hz3]
  -- each load through a whole-buffer rectangle reads the buffer's contents
  simp only [View.readAt_eq_ld, harg2.read_unread, harg3.read_unread, harg4.read_unread, harg5.read_unread,
    View.ld_unit_zero (S := S1x512x1024) hz3, View.ld_unit_zero (S := S1024x1024) hz2,
    View.ld_unit_zero (S := S1x1024x1024) hz3]
  rfl

end Cert.KernelIdeal.Hand

end
-- ==== Proof.KI.Dat1.lean ====
/-
  The proof data of the map region at the contents `V` it is entered from: its four inputs hold their blocks at
  every point (the filter is fetched once, the two batch matrices once per batch), and its output block is the
  row-softmax formula of them.
-/
import proofs.«169305_j78357383348331_1_alg».proof.Proof.KI.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outO (qb1 V c t) (wb1 V c t) (cb1 V c t) (xb1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outO (qb1 V c t) (wb1 V c t) (cb1 V c t) (xb1 V c t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point `t`: the invariant, what the core owes, and each window's current staging
    buffer, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the four inputs' buffers hold their blocks, so the body's run applies at those blocks;
    it returns the inputs as found and the output at the formula of them. The invariant and the debt are the same
    at `t` and at its successor and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run1 c Set.univ _ _ _ _ _ _ _ _ _ _ _ (qb1 V c t) (wb1 V c t) (cb1 V c t) (xb1 V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point: the inputs' buffers hold their blocks, so the body's run applies. -/
theorem body_obligation1 (c : Dev nD) : BodyObligation (dat1 (F := F) V c) (defs₀ (F := F)) Variants.none () Set.univ := fun t => by
  rw [bigSep_W1, bigSep_W1]
  exact sound_body1 V c t

end AtV

end Cert.KernelIdeal.Hand

end
-- ==== Proof.KI.Vals.lean ====
/-
  The contents of the core's buffers at each region boundary: as launched; after the accumulating region (its two
  outputs hold what its write-backs leave, everything else is as before); after the map region (likewise).
-/
import proofs.«169305_j78357383348331_1_alg».proof.Proof.KI.Dat0
import proofs.«169305_j78357383348331_1_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! What region 1 is entered from, buffer by buffer: the query and the filter as launched, the two batch matrices
    as region 0 wrote them. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg2 (c : Dev nD) : V1 m c main_arg2 = m ((c : Thread nD τ).loc main_arg2) :=
  (W1_arr m c 2).trans (((dat0 (V0 m) c).arrAt_in 2 rfl _).trans (A_eq0 (V0 m) c 2))
theorem V1_main_arg3 (c : Dev nD) : V1 m c main_arg3 = m ((c : Thread nD τ).loc main_arg3) :=
  W1_of_ne m c main_arg3 (by decide)
theorem V1_main_v0_0 (c : Dev nD) : V1 m c main_v0_0 = (dat0 (V0 m) c).arrAt 3 cfg0.N := W1_arr m c 3
theorem V1_main_v0_1 (c : Dev nD) : V1 m c main_v0_1 = (dat0 (V0 m) c).arrAt 4 cfg0.N := W1_arr m c 4

/-! What the program ends with: the arguments as launched, the result as region 1 wrote it. -/
theorem W2_main_v1 (c : Dev nD) : W2 m c (Proc.devRef .tc main_v1) = (dat1 (V1 m) c).arrAt 4 cfg1.N := W2_arr m c 4
theorem W2_main_arg0 (c : Dev nD) : W2 m c (Proc.devRef .tc main_arg0) = m ((c : Thread nD τ).loc main_arg0) :=
  (W2_arr m c 0).trans (((dat1 (V1 m) c).arrAt_in 0 rfl _).trans ((A_eq1 (V1 m) c 0).trans (V1_main_arg0 m c)))
theorem W2_main_arg3 (c : Dev nD) : W2 m c (Proc.devRef .tc main_arg3) = m ((c : Thread nD τ).loc main_arg3) :=
  (W2_arr m c 1).trans (((dat1 (V1 m) c).arrAt_in 1 rfl _).trans ((A_eq1 (V1 m) c 1).trans (V1_main_arg3 m c)))
theorem W2_main_arg1 (c : Dev nD) : W2 m c (Proc.devRef .tc main_arg1) = m ((c : Thread nD τ).loc main_arg1) :=
  (W2_of_ne m c main_arg1 (by decide)).trans (V1_main_arg1 m c)
theorem W2_main_arg2 (c : Dev nD) : W2 m c (Proc.devRef .tc main_arg2) = m ((c : Thread nD τ).loc main_arg2) :=
  (W2_of_ne m c main_arg2 (by decide)).trans (V1_main_arg2 m c)

end Cert.KernelIdeal.Hand

end
-- ==== Proof.KI.Run.lean ====
/-
  The run of the whole program: its two regions in order, each entered from what the one before left, and the
  result and the arguments read off the last boundary's contents.
-/
import proofs.«169305_j78357383348331_1_alg».proof.Proof.KI.Vals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 as a segment: entered with every unscoped buffer at the contents before it, left with them at the contents
    after it. Its windows' arrays are split out of the unscoped buffers on entry and joined back, at what the
    write-backs leave, on exit; the generator register passes through the region's invariant; nothing is owed and the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it. Its windows' arrays are split out of the unscoped buffers on entry and joined back, at what the
    write-backs leave, on exit; the generator register passes through the region's invariant; nothing is owed and the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters, every weakly fair execution of @main terminates, nothing faulting, and the
    final memory holds every unscoped buffer at the last boundary's contents: the result at what region 1 wrote,
    each argument as launched. -/
theorem run_main : θ_run defs (onTc (τ := τ) (main (F := F))) ⟨m, fun _ => 0, ρ⟩ (fun r => ∀ c : Dev nD,
      r.2.mem ((c.tc : Thread nD τ).loc main_v1) = W2 m c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨h c _ (mem_uc main_v1 (by decide)),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.Spec.lean ====
/-
  The function both programs compute, over the extended reals, index by index.

  With q, k, v of shape [4, 4096, 1024] and w of shape [1024, 1024]:
    C[b, d, e]  = Σ_s q[b, s, d] · k[b, s, e]          (qᵀk per batch)
    X[b, d, e]  = Σ_s k[b, s, d] · v[b, s, e]          (kᵀv per batch)
    f[b, s, e]  = Σ_d q[b, s, d] · w[d, e]             (the filter)
    l[b, s, e]  = Σ_d f[b, s, d] · C[b, d, e]          (the logits)
    p[b, s, e]  = exp(l[b,s,e] − max_e' l[b,s,e']) / Σ_e' exp(l[b,s,e'] − max_e'' l[b,s,e''])   (row softmax)
    out[b,s,e]  = Σ_d p[b, s, d] · X[b, d, e]
  The row maximum is taken from −∞ and then once more against −∞, as both programs do.
-/
import Idealize.ShloMosaic.PureOps.Ideal
import Idealize.ShloMosaic.Lib.ValueIdx

noncomputable section

open scoped BigOperators

namespace Cert.Spec

open Idealize.ShloMosaic Idealize.ShloMosaic.ValueIdx

abbrev A3 : Shape := ⟨3, ![4, 4096, 1024]⟩
abbrev M3 : Shape := ⟨3, ![4, 1024, 1024]⟩
abbrev W2 : Shape := ⟨2, ![1024, 1024]⟩

/-- The per-batch product of two [4, 4096, 1024] arrays contracted over their middle axis. -/
def Cmat (x y : A3.Idx → EReal) : M3.Idx → EReal := fun j =>
  ∑ s : Fin 4096, x (ix3 (n0 := 4) (n1 := 4096) (n2 := 1024) (j 0) s (j 1)) * y (ix3 (n0 := 4) (n1 := 4096) (n2 := 1024) (j 0) s (j 2))

/-- The filter: each row of q times w. -/
def Filt (q : A3.Idx → EReal) (w : W2.Idx → EReal) : A3.Idx → EReal := fun i =>
  ∑ d : Fin 1024, q (ix3 (n0 := 4) (n1 := 4096) (n2 := 1024) (i 0) (i 1) d) * w (ix2 (n0 := 1024) (n1 := 1024) d (i 2))

/-- A [4, 4096, 1024] array times a [4, 1024, 1024] array, batch by batch. -/
def Bmm (f : A3.Idx → EReal) (C : M3.Idx → EReal) : A3.Idx → EReal := fun i =>
  ∑ d : Fin 1024, f (ix3 (n0 := 4) (n1 := 4096) (n2 := 1024) (i 0) (i 1) d) * C (ix3 (n0 := 4) (n1 := 1024) (n2 := 1024) (i 0) d (i 2))

/-- The seed of the row maximum: the f32 pattern of −∞, kept as its pattern (both programs carry the same word). -/
def negInf : EReal := Ideal.ofBits .f32 0xFF800000#32

/-- A row's maximum as both programs take it: folded from −∞, then joined with −∞ once more. -/
def rowMax (r : Fin 1024 → EReal) : EReal := max negInf (Finset.univ.fold max negInf r)

/-- The row softmax over the last axis. -/
def Soft (l : A3.Idx → EReal) : A3.Idx → EReal := fun i =>
  Ideal.div (Ideal.exp (l i - rowMax fun e => l (ix3 (n0 := 4) (n1 := 4096) (n2 := 1024) (i 0) (i 1) e)))
    (∑ e' : Fin 1024, Ideal.exp (l (ix3 (n0 := 4) (n1 := 4096) (n2 := 1024) (i 0) (i 1) e') - rowMax fun e => l (ix3 (n0 := 4) (n1 := 4096) (n2 := 1024) (i 0) (i 1) e)))

/-- The whole result. -/
def Out (q k v : A3.Idx → EReal) (w : W2.Idx → EReal) : A3.Idx → EReal :=
  Bmm (Soft (Bmm (Filt q w) (Cmat q k))) (Cmat k v)

end Cert.Spec

end
-- ==== Proof.KI.Value0.lean ====
/-
  What the accumulating region leaves in its two output arrays, at the extended reals: each [4, 1024, 1024] array is
  the per-batch product of two inputs contracted over all 4096 rows — the sixteen block products of a batch, each a
  sum over the block's 256 rows, added up from zero, are the one sum over the batch's rows.
-/
import proofs.«169305_j78357383348331_1_alg».proof.Proof.KI.Dat0
import proofs.«169305_j78357383348331_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-! ## One accumulation step, entry by entry -/

/-- The product contracts axis 0 of both [256, 1024] operands: the left operand is read at (k, d) … -/
theorem lhs_blockDot_0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q
theorem lhs_blockDot_1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
/-- … and the right operand at (k, e). -/
theorem rhs_blockDot_0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q
theorem rhs_blockDot_1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- Entry (d, e) of the block product xᵀy into a zero accumulator: the sum over the 256 rows k of x(k, d) · y(k, e). -/
theorem blockDot_apply (x y : FVec Ideal S256x1024 .bf16) (d e : Fin 1024) :
    FloatOps.matmul dot_S256x1024_S256x1024_S1024x1024_0_0_1_1_n_n none x y (constant (F := Ideal) S1024x1024 .f32 0x00000000#32) (ix2 d e)
      = ∑ k : Fin 256, x (ix2 k d) * y (ix2 k e) := by
  rw [Ideal.matmul_constant_zero_apply, ← Equiv.sum_comp (ValueIdx.contrEquiv1 dot_S256x1024_S256x1024_S1024x1024_0_0_1_1_n_n 256 rfl rfl).symm]
  refine Finset.sum_congr rfl fun k _ => ?_
  have hk := ValueIdx.contrEquiv1_symm_val dot_S256x1024_S256x1024_S1024x1024_0_0_1_1_n_n 256 rfl rfl k
  have el : dot_S256x1024_S256x1024_S1024x1024_0_0_1_1_n_n.lhsIdx (ix2 d e) ((ValueIdx.contrEquiv1 dot_S256x1024_S256x1024_S1024x1024_0_0_1_1_n_n 256 rfl rfl).symm k) = ix2 k d := funext fun a => Fin.ext (by
    match a with
    | ⟨0, _⟩ => exact (lhs_blockDot_0 _ _).trans hk
    | ⟨1, _⟩ => exact lhs_blockDot_1 _ _)
  have er : dot_S256x1024_S256x1024_S1024x1024_0_0_1_1_n_n.rhsIdx (ix2 d e) ((ValueIdx.contrEquiv1 dot_S256x1024_S256x1024_S1024x1024_0_0_1_1_n_n 256 rfl rfl).symm k) = ix2 k e := funext fun a => Fin.ext (by
    match a with
    | ⟨0, _⟩ => exact (rhs_blockDot_0 _ _).trans hk
    | ⟨1, _⟩ => exact rhs_blockDot_1 _ _)
  rw [el, er]

/-- A [1, 256, 1024] block seen as [256, 1024], its change of format the identity at the extended reals: entry (k, d) is
    the block's (0, k, d). -/
theorem flat_apply (x : Vec Ideal S1x256x1024 .f32) (k : Fin 256) (d : Fin 1024) :
    (truncf .bf16 (shapeCast S256x1024 x shapeCasts_S1x256x1024_S256x1024) bitsLt_bf16_f32 : FVec Ideal S256x1024 .bf16) (ix2 k d)
      = x (ix3 (0 : Fin 1) k d) := by
  refine (shapeCast_dropUnit_apply ![256, 1024] x shapeCasts_S1x256x1024_S256x1024 (ix2 k d)).trans ?_
  exact congrArg x (funext fun a => by match a with | ⟨0, _⟩ => rfl | ⟨1, _⟩ => rfl | ⟨2, _⟩ => rfl)

/-- What a [1, 256, 1024] block pair contributes to entry (d, e): the sum over the block's rows. -/
def blockSum (x y : Vec Ideal S1x256x1024 .f32) (d e : Fin 1024) : EReal :=
  ∑ k : Fin 256, x (ix3 (0 : Fin 1) k d) * y (ix3 (0 : Fin 1) k e)

/-- A step of the first accumulator adds the block pair's contribution to each entry. -/
theorem stepC_apply (x0 x1 : Vec Ideal S1x256x1024 .f32) (a : Vec Ideal S1024x1024 .f32) (d e : Fin 1024) :
    stepC x0 x1 a (ix2 d e) = a (ix2 d e) + blockSum x0 x1 d e := by
  unfold stepC k0_pay4 k0_pay3
  refine (congrFun (shapeCast_self _ shapeCasts_S1024x1024_S1024x1024) (ix2 d e)).trans ?_
  refine congrArg (a (ix2 d e) + ·) ?_
  refine (blockDot_apply _ _ d e).trans ?_
  exact Finset.sum_congr rfl fun k _ => congrArg₂ (· * ·) (flat_apply x0 k d) (flat_apply x1 k e)

/-- A step of the second accumulator does the same with its block pair. -/
theorem stepX_apply (x1 x2 : Vec Ideal S1x256x1024 .f32) (a : Vec Ideal S1024x1024 .f32) (d e : Fin 1024) :
    stepX x1 x2 a (ix2 d e) = a (ix2 d e) + blockSum x1 x2 d e := by
  unfold stepX k0_pay5 k0_pay3
  refine (congrFun (shapeCast_self _ shapeCasts_S1024x1024_S1024x1024) (ix2 d e)).trans ?_
  refine congrArg (a (ix2 d e) + ·) ?_
  refine (blockDot_apply _ _ d e).trans ?_
  exact Finset.sum_congr rfl fun k _ => congrArg₂ (· * ·) (flat_apply x1 k d) (flat_apply x2 k e)

/-- The matrix an accumulator is reset to is zero at every entry. -/
theorem zeroC_apply (d e : Fin 1024) : (zeroC (F := Ideal)) (ix2 d e) = 0 := by
  unfold zeroC k0_pay1
  refine (congrFun (shapeCast_self _ shapeCasts_S1024x1024_S1024x1024) (ix2 d e)).trans ?_
  exact Ideal.ofBits_zero_f32
theorem zeroX_apply (d e : Fin 1024) : (zeroX (F := Ideal)) (ix2 d e) = 0 := by
  unfold zeroX k0_pay2
  refine (congrFun (shapeCast_self _ shapeCasts_S1024x1024_S1024x1024) (ix2 d e)).trans ?_
  exact Ideal.ofBits_zero_f32

/-- What is written out of an accumulator: entry (0, d, e) of the [1, 1024, 1024] block is the accumulator's (d, e). -/
theorem outC_apply (a : Vec Ideal S1024x1024 .f32) (d e : Fin 1024) :
    outC a (ix3 (0 : Fin 1) d e) = a (ix2 d e) := by
  unfold outC k0_pay6
  refine (shapeCast_addUnit_apply ![1024, 1024] _ shapeCasts_S1024x1024_S1x1024x1024 (ix3 (0 : Fin 1) d e)).trans ?_
  exact congrArg a (funext fun b => by match b with | ⟨0, _⟩ => rfl | ⟨1, _⟩ => rfl)
theorem outX_apply (a : Vec Ideal S1024x1024 .f32) (d e : Fin 1024) :
    outX a (ix3 (0 : Fin 1) d e) = a (ix2 d e) := by
  unfold outX k0_pay7
  refine (shapeCast_addUnit_apply ![1024, 1024] _ shapeCasts_S1024x1024_S1x1024x1024 (ix3 (0 : Fin 1) d e)).trans ?_
  exact congrArg a (funext fun b => by match b with | ⟨0, _⟩ => rfl | ⟨1, _⟩ => rfl)

/-! ## The rows of a batch, block by block -/

/-- The 4096 rows of a batch are its sixteen blocks of 256: a sum over the rows is the sum over the blocks of the sums
    over each block's rows. -/
theorem sum_rows (h : Fin 4096 → EReal) :
    ∑ n : Fin 4096, h n = ∑ s : Fin 16, ∑ k : Fin 256, h ⟨256 * s.val + k.val, by have := s.isLt; have := k.isLt; omega⟩ := by
  rw [← Equiv.sum_comp (finProdFinEquiv (m := 16) (n := 256)) h, Fintype.sum_prod_type]
  refine Finset.sum_congr rfl fun s _ => Finset.sum_congr rfl fun k _ => congrArg h (Fin.ext ?_)
  show k.val + 256 * s.val = 256 * s.val + k.val
  omega

/-- What the rows of block s of batch b contribute to entry (d, e) of the per-batch product of two arrays. -/
def rowsSum (x y : Cert.Spec.A3.Idx → EReal) (b : Fin 4) (d e : Fin 1024) (s : Fin 16) : EReal :=
  ∑ k : Fin 256,
    x (ix3 (n0 := 4) (n1 := 4096) (n2 := 1024) b ⟨256 * s.val + k.val, by have := s.isLt; have := k.isLt; omega⟩ d)
      * y (ix3 (n0 := 4) (n1 := 4096) (n2 := 1024) b ⟨256 * s.val + k.val, by have := s.isLt; have := k.isLt; omega⟩ e)

/-- The sixteen blocks' contributions are the specification's sum over all the batch's rows. -/
theorem sum_rowsSum (x y : Cert.Spec.A3.Idx → EReal) (b : Fin 4) (d e : Fin 1024) :
    ∑ s : Fin 16, rowsSum x y b d e s = Cert.Spec.Cmat x y (ix3 (n0 := 4) (n1 := 1024) (n2 := 1024) b d e) := by
  unfold rowsSum Cert.Spec.Cmat
  exact (sum_rows fun n => x (ix3 (n0 := 4) (n1 := 4096) (n2 := 1024) b n d) * y (ix3 (n0 := 4) (n1 := 4096) (n2 := 1024) b n e)).symm

/-! ## The blocks the region reads and writes, in their arrays -/

/-- Where the blocks sit: at point t = 16·b + s (so b = t / 16, s = t % 16) the three inputs' blocks are at block index
    (b, s, 0) of their arrays and the two outputs' at (b, 0, 0). -/
theorem idx_facts0 : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

variable (V : (c : Dev nD) → (b : Ref sig .tc) → Buf (Elt Ideal) ((c : Thread nD τ).loc b))

/-- Entry (0, k, d) of the first input's block at point 16·b + s is the array's (b, 256·s + k, d). -/
theorem qb_apply (c : Dev nD) (t : Fin cfg0.N) (b : Fin 4) (s : Fin 16) (ht : t.val = 16 * b.val + s.val) (k : Fin 256) (d : Fin 1024) :
    qb V c t (ix3 (0 : Fin 1) k d)
      = V c main_arg0 (ix3 (n0 := 4) (n1 := 4096) (n2 := 1024) b ⟨256 * s.val + k.val, by have := s.isLt; have := k.isLt; omega⟩ d) := by
  obtain ⟨e0, e1, e2, -⟩ := idx_facts0 t
  have hs := s.isLt
  show V c main_arg0 (((cfg0.win 0).blk t).view.emb (ix3 (0 : Fin 1) k d)) = _
  refine congrArg (V c main_arg0) (funext fun a => Fin.ext ?_)
  match a with
  | ⟨0, _⟩ => show win0_0.index t (0 : Fin 3) * 1 + 1 * 0 = b.val; rw [e0]; omega
  | ⟨1, _⟩ => show win0_0.index t (1 : Fin 3) * 256 + 1 * k.val = 256 * s.val + k.val; rw [e1]; omega
  | ⟨2, _⟩ => show win0_0.index t (2 : Fin 3) * 1024 + 1 * d.val = d.val; rw [e2]; omega
/-- The same for the second input … -/
theorem kb_apply (c : Dev nD) (t : Fin cfg0.N) (b : Fin 4) (s : Fin 16) (ht : t.val = 16 * b.val + s.val) (k : Fin 256) (d : Fin 1024) :
    kb V c t (ix3 (0 : Fin 1) k d)
      = V c main_arg1 (ix3 (n0 := 4) (n1 := 4096) (n2 := 1024) b ⟨256 * s.val + k.val, by have := s.isLt; have := k.isLt; omega⟩ d) := by
  obtain ⟨-, -, -, e0, e1, e2, -⟩ := idx_facts0 t
  have hs := s.isLt
  show V c main_arg1 (((cfg0.win 1).blk t).view.emb (ix3 (0 : Fin 1) k d)) = _
  refine congrArg (V c main_arg1) (funext fun a => Fin.ext ?_)
  match a with
  | ⟨0, _⟩ => show win0_1.index t (0 : Fin 3) * 1 + 1 * 0 = b.val; rw [e0]; omega
  | ⟨1, _⟩ => show win0_1.index t (1 : Fin 3) * 256 + 1 * k.val = 256 * s.val + k.val; rw [e1]; omega
  | ⟨2, _⟩ => show win0_1.index t (2 : Fin 3) * 1024 + 1 * d.val = d.val; rw [e2]; omega
/-- … and the third. -/
theorem vb_apply (c : Dev nD) (t : Fin cfg0.N) (b : Fin 4) (s : Fin 16) (ht : t.val = 16 * b.val + s.val) (k : Fin 256) (d : Fin 1024) :
    vb V c t (ix3 (0 : Fin 1) k d)
      = V c main_arg2 (ix3 (n0 := 4) (n1 := 4096) (n2 := 1024) b ⟨256 * s.val + k.val, by have := s.isLt; have := k.isLt; omega⟩ d) := by
  obtain ⟨-, -, -, -, -, -, e0, e1, e2, -⟩ := idx_facts0 t
  have hs := s.isLt
  show V c main_arg2 (((cfg0.win 2).blk t).view.emb (ix3 (0 : Fin 1) k d)) = _
  refine congrArg (V c main_arg2) (funext fun a => Fin.ext ?_)
  match a with
  | ⟨0, _⟩ => show win0_2.index t (0 : Fin 3) * 1 + 1 * 0 = b.val; rw [e0]; omega
  | ⟨1, _⟩ => show win0_2.index t (1 : Fin 3) * 256 + 1 * k.val = 256 * s.val + k.val; rw [e1]; omega
  | ⟨2, _⟩ => show win0_2.index t (2 : Fin 3) * 1024 + 1 * d.val = d.val; rw [e2]; omega

/-- So the block pairs of point 16·b + s contribute the rows of block s of batch b. -/
theorem blockSum_qk (c : Dev nD) (t : Fin cfg0.N) (b : Fin 4) (s : Fin 16) (ht : t.val = 16 * b.val + s.val) (d e : Fin 1024) :
    blockSum (qb V c t) (kb V c t) d e = rowsSum (V c main_arg0) (V c main_arg1) b d e s :=
  Finset.sum_congr rfl fun k _ => congrArg₂ (· * ·) (qb_apply V c t b s ht k d) (kb_apply V c t b s ht k e)
theorem blockSum_kv (c : Dev nD) (t : Fin cfg0.N) (b : Fin 4) (s : Fin 16) (ht : t.val = 16 * b.val + s.val) (d e : Fin 1024) :
    blockSum (kb V c t) (vb V c t) d e = rowsSum (V c main_arg1) (V c main_arg2) b d e s :=
  Finset.sum_congr rfl fun k _ => congrArg₂ (· * ·) (kb_apply V c t b s ht k d) (vb_apply V c t b s ht k e)

/-! ## The accumulators between points -/

/-- At the first S-block of a batch the first accumulator holds that block pair's contribution … -/
theorem accC_reset (c : Dev nD) (t : Fin cfg0.N) (h : t.val % 16 = 0) (d e : Fin 1024) :
    (accAt V c t.val t.isLt).1 (ix2 d e) = blockSum (qb V c t) (kb V c t) d e := by
  rw [accAt_reset V c t h]
  dsimp only
  refine (stepC_apply (qb V c t) (kb V c t) zeroC d e).trans ?_
  rw [zeroC_apply, zero_add]
/-- … and at every other it adds the block pair's to what the point before left. -/
theorem accC_step (c : Dev nD) (t : Fin cfg0.N) (h : ¬t.val % 16 = 0) (d e : Fin 1024) :
    (accAt V c t.val t.isLt).1 (ix2 d e)
      = (accAt V c (t.val - 1) (Nat.lt_of_le_of_lt (Nat.sub_le _ _) t.isLt)).1 (ix2 d e) + blockSum (qb V c t) (kb V c t) d e := by
  rw [accAt_step V c t h]
  dsimp only
  exact stepC_apply (qb V c t) (kb V c t) (accAt V c (t.val - 1) (Nat.lt_of_le_of_lt (Nat.sub_le _ _) t.isLt)).1 d e
/-- The same two facts for the second accumulator. -/
theorem accX_reset (c : Dev nD) (t : Fin cfg0.N) (h : t.val % 16 = 0) (d e : Fin 1024) :
    (accAt V c t.val t.isLt).2 (ix2 d e) = blockSum (kb V c t) (vb V c t) d e := by
  rw [accAt_reset V c t h]
  dsimp only
  refine (stepX_apply (kb V c t) (vb V c t) zeroX d e).trans ?_
  rw [zeroX_apply, zero_add]
theorem accX_step (c : Dev nD) (t : Fin cfg0.N) (h : ¬t.val % 16 = 0) (d e : Fin 1024) :
    (accAt V c t.val t.isLt).2 (ix2 d e)
      = (accAt V c (t.val - 1) (Nat.lt_of_le_of_lt (Nat.sub_le _ _) t.isLt)).2 (ix2 d e) + blockSum (kb V c t) (vb V c t) d e := by
  rw [accAt_step V c t h]
  dsimp only
  exact stepX_apply (kb V c t) (vb V c t) (accAt V c (t.val - 1) (Nat.lt_of_le_of_lt (Nat.sub_le _ _) t.isLt)).2 d e

/-- After S-block s of batch b the first accumulator holds, entry by entry, the contributions of the batch's blocks 0 … s:
    by induction on s, from zero at s = 0. -/
theorem accC_eq (c : Dev nD) (b : Fin 4) (d e : Fin 1024) : ∀ (s : ℕ) (hs : s < 16) (t : Fin cfg0.N), t.val = 16 * b.val + s →
    (accAt V c t.val t.isLt).1 (ix2 d e) = ∑ i : Fin (s + 1), rowsSum (V c main_arg0) (V c main_arg1) b d e ⟨i.val, by have := i.isLt; omega⟩
  | 0, hs, t, ht => by
    rw [accC_reset V c t (by omega) d e, blockSum_qk V c t b ⟨0, hs⟩ ht d e, Fin.sum_univ_castSucc, Fin.sum_univ_zero, zero_add]
    rfl
  | s + 1, hs, t, ht => by
    have ih := accC_eq c b d e s (by omega) ⟨t.val - 1, Nat.lt_of_le_of_lt (Nat.sub_le _ _) t.isLt⟩ (by show t.val - 1 = _; omega)
    rw [accC_step V c t (by omega) d e, blockSum_qk V c t b ⟨s + 1, hs⟩ ht d e, Fin.sum_univ_castSucc]
    exact congrArg (· + rowsSum (V c main_arg0) (V c main_arg1) b d e ⟨s + 1, hs⟩) ih
theorem accX_eq (c : Dev nD) (b : Fin 4) (d e : Fin 1024) : ∀ (s : ℕ) (hs : s < 16) (t : Fin cfg0.N), t.val = 16 * b.val + s →
    (accAt V c t.val t.isLt).2 (ix2 d e) = ∑ i : Fin (s + 1), rowsSum (V c main_arg1) (V c main_arg2) b d e ⟨i.val, by have := i.isLt; omega⟩
  | 0, hs, t, ht => by
    rw [accX_reset V c t (by omega) d e, blockSum_kv V c t b ⟨0, hs⟩ ht d e, Fin.sum_univ_castSucc, Fin.sum_univ_zero, zero_add]
    rfl
  | s + 1, hs, t, ht => by
    have ih := accX_eq c b d e s (by omega) ⟨t.val - 1, Nat.lt_of_le_of_lt (Nat.sub_le _ _) t.isLt⟩ (by show t.val - 1 = _; omega)
    rw [accX_step V c t (by omega) d e, blockSum_kv V c t b ⟨s + 1, hs⟩ ht d e, Fin.sum_univ_castSucc]
    exact congrArg (· + rowsSum (V c main_arg1) (V c main_arg2) b d e ⟨s + 1, hs⟩) ih

/-- At the last S-block of batch b each accumulator holds the specification's per-batch product. -/
theorem accC_last (c : Dev nD) (t : Fin cfg0.N) (b : Fin 4) (ht : t.val = 16 * b.val + 15) (d e : Fin 1024) :
    (accAt V c t.val t.isLt).1 (ix2 d e) = Cert.Spec.Cmat (V c main_arg0) (V c main_arg1) (ix3 (n0 := 4) (n1 := 1024) (n2 := 1024) b d e) :=
  (accC_eq V c b d e 15 (by omega) t ht).trans (sum_rowsSum (V c main_arg0) (V c main_arg1) b d e)
theorem accX_last (c : Dev nD) (t : Fin cfg0.N) (b : Fin 4) (ht : t.val = 16 * b.val + 15) (d e : Fin 1024) :
    (accAt V c t.val t.isLt).2 (ix2 d e) = Cert.Spec.Cmat (V c main_arg1) (V c main_arg2) (ix3 (n0 := 4) (n1 := 1024) (n2 := 1024) b d e) :=
  (accX_eq V c b d e 15 (by omega) t ht).trans (sum_rowsSum (V c main_arg1) (V c main_arg2) b d e)

/-! ## What the region writes back, and where -/

/-- The point that ends batch b writes back, as the first output's block, block (b, 0, 0) of the specification's array. -/
theorem flushedC_eq (c : Dev nD) (t : Fin cfg0.N) (hf : (cfg0.win 3).flush t = true) :
    (dat0 V c).flushed 3 t = ((cfg0.win 3).blk t).view.read (Elt Ideal) (Cert.Spec.Cmat (V c main_arg0) (V c main_arg1)) := by
  have h15 : t.val % 16 = 15 := (flush0_3 t).mp hf
  have hN : cfg0.N = 64 := N_0
  have htlt := t.isLt
  obtain ⟨-, -, -, -, -, -, -, -, -, e0, e1, e2, -⟩ := idx_facts0 t
  funext j
  have hj0 : (j 0).val < 1 := (j 0).isLt
  have hj1 : (j 1).val < 1024 := (j 1).isLt
  have hj2 : (j 2).val < 1024 := (j 2).isLt
  have hx : (cfg0.win 3).xinj (grid0.coords t) j = ix3 (0 : Fin 1) (⟨(j 1).val, hj1⟩ : Fin 1024) (⟨(j 2).val, hj2⟩ : Fin 1024) :=
    funext fun a => Fin.ext (by
      match a with
      | ⟨0, _⟩ => show (j 0).val = 0; omega
      | ⟨1, _⟩ => rfl
      | ⟨2, _⟩ => rfl)
  have hemb : ((cfg0.win 3).blk t).view.emb j
      = ix3 (n0 := 4) (n1 := 1024) (n2 := 1024) (⟨t.val / 16, by omega⟩ : Fin 4) (⟨(j 1).val, hj1⟩ : Fin 1024) (⟨(j 2).val, hj2⟩ : Fin 1024) :=
    funext fun a => Fin.ext (by
      match a with
      | ⟨0, _⟩ => show win0_3.index t (0 : Fin 3) * 1 + 1 * (j 0).val = t.val / 16; rw [e0]; omega
      | ⟨1, _⟩ => show win0_3.index t (1 : Fin 3) * 1024 + 1 * (j 1).val = (j 1).val; rw [e1]; omega
      | ⟨2, _⟩ => show win0_3.index t (2 : Fin 3) * 1024 + 1 * (j 2).val = (j 2).val; rw [e2]; omega)
  show (cfg0.win 3).cut (grid0.coords t) ((dat0 V c).after 3 t) j = _
  rw [after0_3 V c t]
  show outC (accAt V c t.val t.isLt).1 ((cfg0.win 3).xinj (grid0.coords t) j) = _
  refine (congrArg (outC (accAt V c t.val t.isLt).1) hx).trans ?_
  refine (outC_apply (accAt V c t.val t.isLt).1 ⟨(j 1).val, hj1⟩ ⟨(j 2).val, hj2⟩).trans ?_
  refine (accC_last V c t ⟨t.val / 16, by omega⟩ (by show t.val = 16 * (t.val / 16) + 15; omega) ⟨(j 1).val, hj1⟩ ⟨(j 2).val, hj2⟩).trans ?_
  exact (congrArg (Cert.Spec.Cmat (V c main_arg0) (V c main_arg1)) hemb).symm
/-- The same for the second output. -/
theorem flushedX_eq (c : Dev nD) (t : Fin cfg0.N) (hf : (cfg0.win 4).flush t = true) :
    (dat0 V c).flushed 4 t = ((cfg0.win 4).blk t).view.read (Elt Ideal) (Cert.Spec.Cmat (V c main_arg1) (V c main_arg2)) := by
  have h15 : t.val % 16 = 15 := (flush0_4 t).mp hf
  have hN : cfg0.N = 64 := N_0
  have htlt := t.isLt
  obtain ⟨-, -, -, -, -, -, -, -, -, -, -, -, e0, e1, e2⟩ := idx_facts0 t
  funext j
  have hj0 : (j 0).val < 1 := (j 0).isLt
  have hj1 : (j 1).val < 1024 := (j 1).isLt
  have hj2 : (j 2).val < 1024 := (j 2).isLt
  have hx : (cfg0.win 4).xinj (grid0.coords t) j = ix3 (0 : Fin 1) (⟨(j 1).val, hj1⟩ : Fin 1024) (⟨(j 2).val, hj2⟩ : Fin 1024) :=
    funext fun a => Fin.ext (by
      match a with
      | ⟨0, _⟩ => show (j 0).val = 0; omega
      | ⟨1, _⟩ => rfl
      | ⟨2, _⟩ => rfl)
  have hemb : ((cfg0.win 4).blk t).view.emb j
      = ix3 (n0 := 4) (n1 := 1024) (n2 := 1024) (⟨t.val / 16, by omega⟩ : Fin 4) (⟨(j 1).val, hj1⟩ : Fin 1024) (⟨(j 2).val, hj2⟩ : Fin 1024) :=
    funext fun a => Fin.ext (by
      match a with
      | ⟨0, _⟩ => show win0_4.index t (0 : Fin 3) * 1 + 1 * (j 0).val = t.val / 16; rw [e0]; omega
      | ⟨1, _⟩ => show win0_4.index t (1 : Fin 3) * 1024 + 1 * (j 1).val = (j 1).val; rw [e1]; omega
      | ⟨2, _⟩ => show win0_4.index t (2 : Fin 3) * 1024 + 1 * (j 2).val = (j 2).val; rw [e2]; omega)
  show (cfg0.win 4).cut (grid0.coords t) ((dat0 V c).after 4 t) j = _
  rw [after0_4 V c t]
  show outX (accAt V c t.val t.isLt).2 ((cfg0.win 4).xinj (grid0.coords t) j) = _
  refine (congrArg (outX (accAt V c t.val t.isLt).2) hx).trans ?_
  refine (outX_apply (accAt V c t.val t.isLt).2 ⟨(j 1).val, hj1⟩ ⟨(j 2).val, hj2⟩).trans ?_
  refine (accX_last V c t ⟨t.val / 16, by omega⟩ (by show t.val = 16 * (t.val / 16) + 15; omega) ⟨(j 1).val, hj1⟩ ⟨(j 2).val, hj2⟩).trans ?_
  exact (congrArg (Cert.Spec.Cmat (V c main_arg1) (V c main_arg2)) hemb).symm

/-- An entry of the [4, 1024, 1024] array is in point t's block iff each coordinate is in the block's range on its axis. -/
theorem mem_blkC (t : Fin cfg0.N) (i : S4x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v0_0).slice (win0_3.rect t)).set ↔ _
  rw [View.set_slice_whole, Rect.mem_set_unit]
  exact Iff.rfl
theorem mem_blkX (t : Fin cfg0.N) (i : S4x1024x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v0_1).slice (win0_4.rect t)).set ↔ _
  rw [View.set_slice_whole, Rect.mem_set_unit]
  exact Iff.rfl

/-- Entry (b, d, e) is in the block the last point of batch b writes back: the four write-backs cover the array. -/
theorem coverC (i : S4x1024x1024.Idx) : ∃ t : Fin cfg0.N, (cfg0.win 3).flush t = true ∧ i ∈ ((cfg0.win 3).blk t).view.set := by
  have hN : cfg0.N = 64 := N_0
  have hi0 : (i 0).val < 4 := (i 0).isLt
  have hi1 : (i 1).val < 1024 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨-, -, -, -, -, -, -, -, -, e0, e1, e2, -⟩ := idx_facts0 t
  refine ⟨t, (flush0_3 t).mpr (by omega), ?_⟩
  rw [mem_blkC]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1024 ≤ (i 1).val ∧ (i 1).val < win0_3.index t (1 : Fin 3) * 1024 + 1024; rw [e1]; omega
  | ⟨2, _⟩ => show win0_3.index t (2 : Fin 3) * 1024 ≤ (i 2).val ∧ (i 2).val < win0_3.index t (2 : Fin 3) * 1024 + 1024; rw [e2]; omega
theorem coverX (i : S4x1024x1024.Idx) : ∃ t : Fin cfg0.N, (cfg0.win 4).flush t = true ∧ i ∈ ((cfg0.win 4).blk t).view.set := by
  have hN : cfg0.N = 64 := N_0
  have hi0 : (i 0).val < 4 := (i 0).isLt
  have hi1 : (i 1).val < 1024 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨-, -, -, -, -, -, -, -, -, -, -, -, e0, e1, e2⟩ := idx_facts0 t
  refine ⟨t, (flush0_4 t).mpr (by omega), ?_⟩
  rw [mem_blkX]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 1024 ≤ (i 1).val ∧ (i 1).val < win0_4.index t (1 : Fin 3) * 1024 + 1024; rw [e1]; omega
  | ⟨2, _⟩ => show win0_4.index t (2 : Fin 3) * 1024 ≤ (i 2).val ∧ (i 2).val < win0_4.index t (2 : Fin 3) * 1024 + 1024; rw [e2]; omega

/-- After the region, its first output array holds qᵀk per batch. -/
theorem arr0_3 (c : Dev nD) :
    (dat0 (F := Ideal) V c).arrAt 3 cfg0.N = Cert.Spec.Cmat (V c main_arg0) (V c main_arg1) := by
  exact (dat0 V c).arrAt_eq_of_cover 3 (Cert.Spec.Cmat (V c main_arg0) (V c main_arg1)) (fun t hf => flushedC_eq V c t hf) coverC

/-- After the region, its second output array holds kᵀv per batch. -/
theorem arr0_4 (c : Dev nD) :
    (dat0 (F := Ideal) V c).arrAt 4 cfg0.N = Cert.Spec.Cmat (V c main_arg1) (V c main_arg2) := by
  exact (dat0 V c).arrAt_eq_of_cover 4 (Cert.Spec.Cmat (V c main_arg1) (V c main_arg2)) (fun t hf => flushedX_eq V c t hf) coverX

end Cert.KernelIdeal.Hand

end
-- ==== Proof.KI.Value1.lean ====
/-
  What the map region leaves in its output array, at the extended reals: block by block, the rows of the query through
  the filter, the first batch matrix, the row softmax and the second batch matrix — one whole-array function of the
  four arrays the region reads.
-/
import proofs.«169305_j78357383348331_1_alg».proof.Proof.KI.Dat1
import proofs.«169305_j78357383348331_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

/-! ## A block product read at an index -/

/-- Row axis of the left factor: the output's row. -/
theorem lhsMap_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- Column axis of the left factor: the summation index. -/
theorem lhsMap_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- Row axis of the right factor: the summation index. -/
theorem rhsMap_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- Column axis of the right factor: the output's column. -/
theorem rhsMap_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512,1024] by [1024,1024] product accumulated into zero is, entry by entry, rows times columns. -/
theorem blockProd_apply {φ₁ φ₂ : FTy} (lhs : FVec Ideal S512x1024 φ₁) (rhs : FVec Ideal S1024x1024 φ₂) (r : Fin 512) (e : Fin 1024) :
    matmul dot_S512x1024_S1024x1024_S512x1024_1_0_0_1_n_n none lhs rhs (constant (F := Ideal) S512x1024 .f32 0x00000000#32) (ix2 r e)
      = ∑ k : Fin 1024, lhs (ix2 r k) * rhs (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun a => Fin.ext (by
    match a with
    | ⟨0, _⟩ => exact lhsMap_0 _ _
    | ⟨1, _⟩ => exact (lhsMap_1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun a => Fin.ext (by
    match a with
    | ⟨0, _⟩ => exact (rhsMap_0 _ _).trans hk
    | ⟨1, _⟩ => exact rhsMap_1 _ _)
  rw [el, er]

/-! ## Column re-layouts -/

/-- A vector re-laid as a one-column matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix spread over b columns reads, at (i, c), the column at i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The two row reductions of a [512,1024] block -/

/-- The row maximum: the fold of max from the seed over the row's entries. -/
theorem rowFoldMax_apply (src : FVec Ideal S512x1024 .f32) (hφ : FKind.Formats .f32)
    (hm : (0xFF800000#32 : BitVec 32) = FKind.maximumf.neutral .f32 hφ) (r : Fin 512) :
    multiReduction (F := Ideal) .maximumf [1] S512 src 0xFF800000#32 reduces_S512x1024_S512 hφ hm (ix1 r)
      = (Finset.univ : Finset (Fin 1024)).fold max (Ideal.ofBits .f32 0xFF800000#32) (fun e => src (ix2 r e)) := by
  refine (Ideal.multiReduction_maximumf_single src 0xFF800000#32 reduces_S512x1024_S512 hφ hm (ix1 r)).trans ?_
  show (Finset.univ : Finset (Fin 1024)).fold max (Ideal.ofBits .f32 0xFF800000#32) (fun e => src (reduces_S512x1024_S512.lift (ix1 r) e)) = _
  refine congrArg (fun f => Finset.fold max (Ideal.ofBits .f32 0xFF800000#32) f (Finset.univ : Finset (Fin 1024)))
    (funext fun e => congrArg src (funext fun a => Fin.ext ?_))
  match a with
  | ⟨0, _⟩ => rfl
  | ⟨1, _⟩ => rfl

/-- The row sum. -/
theorem rowSum_apply (src : FVec Ideal S512x1024 .f32) (hφ : FKind.Formats .f32)
    (hs : (0x00000000#32 : BitVec 32) = FKind.add.neutral .f32 hφ) (r : Fin 512) :
    multiReduction (F := Ideal) .add [1] S512 src 0x00000000#32 reduces_S512x1024_S512 hφ hs (ix1 r)
      = ∑ e : Fin 1024, src (ix2 r e) := by
  refine (Ideal.multiReduction_add_single src 0x00000000#32 reduces_S512x1024_S512 hφ hs (ix1 r)).trans ?_
  show ∑ e : Fin 1024, src (reduces_S512x1024_S512.lift (ix1 r) e) = _
  refine Finset.sum_congr rfl fun e _ => congrArg src (funext fun a => Fin.ext ?_)
  match a with
  | ⟨0, _⟩ => rfl
  | ⟨1, _⟩ => rfl

/-! ## The softmax of the rows of a block -/

/-- The softmax of one row, with the row maximum taken as the specification takes it. -/
def softRow (f : Fin 1024 → EReal) (d : Fin 1024) : EReal :=
  Ideal.div (Ideal.exp (f d - Cert.Spec.rowMax f)) (∑ e' : Fin 1024, Ideal.exp (f e' - Cert.Spec.rowMax f))

/-- The row maxima of a block as the kernel lays them out: folded from the seed, joined with the seed once more,
    stood up as one column and spread over the 1024 columns. -/
abbrev spreadMax (l : FVec Ideal S512x1024 .f32) (hφ : FKind.Formats .f32)
    (hm : (0xFF800000#32 : BitVec 32) = FKind.maximumf.neutral .f32 hφ) : FVec Ideal S512x1024 .f32 :=
  broadcastTo S512x1024 (shapeCast S512x1 (maximumf (broadcast S512 (FloatOps.ofBits (F := Ideal) .f32 0xFF800000#32))
    (multiReduction (F := Ideal) .maximumf [1] S512 l 0xFF800000#32 reduces_S512x1024_S512 hφ hm)) shapeCasts_S512_S512x1) broadcasts_S512x1_S512x1024

/-- The exponentials of the entries less their row's maximum. -/
abbrev shiftedExp (l : FVec Ideal S512x1024 .f32) (hφ : FKind.Formats .f32)
    (hm : (0xFF800000#32 : BitVec 32) = FKind.maximumf.neutral .f32 hφ) : FVec Ideal S512x1024 .f32 :=
  exp (subf l (spreadMax l hφ hm))

/-- Their row sums, laid out the same way. -/
abbrev spreadSum (l : FVec Ideal S512x1024 .f32) (hφ : FKind.Formats .f32)
    (hm : (0xFF800000#32 : BitVec 32) = FKind.maximumf.neutral .f32 hφ)
    (hs : (0x00000000#32 : BitVec 32) = FKind.add.neutral .f32 hφ) : FVec Ideal S512x1024 .f32 :=
  broadcastTo S512x1024 (shapeCast S512x1 (multiReduction (F := Ideal) .add [1] S512 (shiftedExp l hφ hm) 0x00000000#32
    reduces_S512x1024_S512 hφ hs) shapeCasts_S512_S512x1) broadcasts_S512x1_S512x1024

/-- Every entry of a row of the spread maxima is that row's maximum. -/
theorem spreadMax_apply (l : FVec Ideal S512x1024 .f32) (hφ : FKind.Formats .f32)
    (hm : (0xFF800000#32 : BitVec 32) = FKind.maximumf.neutral .f32 hφ) (r : Fin 512) (d : Fin 1024) :
    spreadMax l hφ hm (ix2 r d) = Cert.Spec.rowMax fun e => l (ix2 r e) := by
  refine (broadcastTo_a1_ab_apply _ _ r d).trans ?_
  refine (shapeCast_a_a1_apply _ _ r 0).trans ?_
  exact congrArg (max (Ideal.ofBits .f32 0xFF800000#32)) (rowFoldMax_apply l hφ hm r)

/-- The shifted exponentials at an entry. -/
theorem shiftedExp_apply (l : FVec Ideal S512x1024 .f32) (hφ : FKind.Formats .f32)
    (hm : (0xFF800000#32 : BitVec 32) = FKind.maximumf.neutral .f32 hφ) (r : Fin 512) (d : Fin 1024) :
    shiftedExp l hφ hm (ix2 r d) = Ideal.exp (l (ix2 r d) - Cert.Spec.rowMax fun e => l (ix2 r e)) :=
  congrArg (fun m => Ideal.exp (l (ix2 r d) - m)) (spreadMax_apply l hφ hm r d)

/-- Every entry of a row of the spread sums is that row's sum of shifted exponentials. -/
theorem spreadSum_apply (l : FVec Ideal S512x1024 .f32) (hφ : FKind.Formats .f32)
    (hm : (0xFF800000#32 : BitVec 32) = FKind.maximumf.neutral .f32 hφ)
    (hs : (0x00000000#32 : BitVec 32) = FKind.add.neutral .f32 hφ) (r : Fin 512) (d : Fin 1024) :
    spreadSum l hφ hm hs (ix2 r d) = ∑ e' : Fin 1024, Ideal.exp (l (ix2 r e') - Cert.Spec.rowMax fun e => l (ix2 r e)) := by
  refine (broadcastTo_a1_ab_apply _ _ r d).trans ?_
  refine (shapeCast_a_a1_apply _ _ r 0).trans ?_
  refine (rowSum_apply _ hφ hs r).trans ?_
  exact Finset.sum_congr rfl fun e' _ => shiftedExp_apply l hφ hm r e'

/-- The quotient the kernel forms, entry by entry, is the softmax of the entry's row. -/
theorem softRows_apply (l : FVec Ideal S512x1024 .f32) (hφ : FKind.Formats .f32)
    (hm : (0xFF800000#32 : BitVec 32) = FKind.maximumf.neutral .f32 hφ)
    (hs : (0x00000000#32 : BitVec 32) = FKind.add.neutral .f32 hφ) (r : Fin 512) (d : Fin 1024) :
    truncf .bf16 (divf (shiftedExp l hφ hm) (spreadSum l hφ hm hs)) bitsLt_bf16_f32 (ix2 r d) = softRow (fun e => l (ix2 r e)) d :=
  congrArg₂ Ideal.div (shiftedExp_apply l hφ hm r d) (spreadSum_apply l hφ hm hs r d)

/-! ## The stored block at an entry -/

/-- Entry (r, e) of the block the kernel stores: the softmax of row r of (x0·x1)·x2, times column e of x3. -/
theorem outO_apply (x0 : Vec Ideal S1x512x1024 .f32) (x1 : Vec Ideal S1024x1024 .f32) (x2 x3 : Vec Ideal S1x1024x1024 .bf16)
    (u : Fin 1) (r : Fin 512) (e : Fin 1024) :
    outO (F := Ideal) x0 x1 x2 x3 (ix3 u r e)
      = ∑ d : Fin 1024, softRow (fun e' => ∑ d' : Fin 1024, (∑ k : Fin 1024, x0 (ix3 (0 : Fin 1) r k) * x1 (ix2 k d')) * x2 (ix3 (0 : Fin 1) d' e')) d
          * x3 (ix3 (0 : Fin 1) d e) := by
  unfold outO k1_pay1
  refine (shapeCast_ab_1ab_apply _ _ u r e).trans ?_
  refine (blockProd_apply _ _ r e).trans ?_
  refine Finset.sum_congr rfl fun d _ => congrArg₂ (· * ·) ?_ (shapeCast_1ab_ab_apply _ _ d e)
  refine (softRows_apply _ _ _ _ r d).trans ?_
  refine congrArg (fun f => softRow f d) (funext fun e' => ?_)
  refine (blockProd_apply _ _ r e').trans ?_
  refine Finset.sum_congr rfl fun d' _ => congrArg₂ (· * ·) ?_ (shapeCast_1ab_ab_apply _ _ d' e')
  refine (truncf_apply (ψ := FTy.bf16) _ bitsLt_bf16_f32 (ix2 r d')).trans ?_
  refine (blockProd_apply _ _ r d').trans ?_
  exact Finset.sum_congr rfl fun k _ => congrArg₂ (· * ·)
    ((truncf_apply (ψ := FTy.bf16) _ bitsLt_bf16_f32 (ix2 r k)).trans (shapeCast_1ab_ab_apply _ _ r k))
    (truncf_apply (ψ := FTy.bf16) _ bitsLt_bf16_f32 (ix2 k d'))

/-! ## The blocks as parts of the arrays -/

/-- The printed index maps over the 4 × 8 grid: point t is S-block t % 8 of batch t / 8; the filter is whole; the two
    batch matrices are batch t / 8. -/
theorem gridIdx : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

/-- The four arrays the region reads, at their literal types: the query, the filter, and the two batch matrices. -/
abbrev qArr (c : Dev nD) : Cert.Spec.A3.Idx → EReal := V c main_arg0
abbrev wArr (c : Dev nD) : Cert.Spec.W2.Idx → EReal := V c main_arg3
abbrev cArr (c : Dev nD) : Cert.Spec.M3.Idx → EReal := V c main_v0_0
abbrev xArr (c : Dev nD) : Cert.Spec.M3.Idx → EReal := V c main_v0_1

/-- The query block of point t: rows 512·(t % 8) + r of batch t / 8. -/
theorem qb1_apply (c : Dev nD) (t : Fin cfg1.N) (u : Fin 1) (r : Fin 512) (k : Fin 1024) (b : Fin 4) (σ : Fin 4096)
    (hb : b.val = t.val / 8) (hσ : σ.val = 512 * (t.val % 8) + r.val) :
    qb1 V c t (ix3 u r k) = qArr V c (ix3 b σ k) := by
  obtain ⟨e0, e1, e2, -⟩ := gridIdx t
  show qArr V c (((cfg1.win 0).blk t).view.emb (ix3 u r k)) = _
  refine congrArg (qArr V c) (funext fun a => Fin.ext ?_)
  match a with
  | ⟨0, _⟩ => show win1_0.index t (0 : Fin 3) * 1 + 1 * u.val = b.val; have := u.isLt; omega
  | ⟨1, _⟩ => show win1_0.index t (1 : Fin 3) * 512 + 1 * r.val = σ.val; omega
  | ⟨2, _⟩ => show win1_0.index t (2 : Fin 3) * 1024 + 1 * k.val = k.val; omega

/-- The filter block of every point is the filter. -/
theorem wb1_apply (c : Dev nD) (t : Fin cfg1.N) (k d : Fin 1024) :
    wb1 V c t (ix2 k d) = wArr V c (ix2 k d) := by
  obtain ⟨-, -, -, e0, e1, -⟩ := gridIdx t
  show wArr V c (((cfg1.win 1).blk t).view.emb (ix2 k d)) = _
  refine congrArg (wArr V c) (funext fun a => Fin.ext ?_)
  match a with
  | ⟨0, _⟩ => show win1_1.index t (0 : Fin 2) * 1024 + 1 * k.val = k.val; omega
  | ⟨1, _⟩ => show win1_1.index t (1 : Fin 2) * 1024 + 1 * d.val = d.val; omega

/-- The first batch-matrix block of point t: batch t / 8. -/
theorem cb1_apply (c : Dev nD) (t : Fin cfg1.N) (u : Fin 1) (d e : Fin 1024) (b : Fin 4) (hb : b.val = t.val / 8) :
    cb1 V c t (ix3 u d e) = cArr V c (ix3 b d e) := by
  obtain ⟨-, -, -, -, -, e0, e1, e2, -⟩ := gridIdx t
  show cArr V c (((cfg1.win 2).blk t).view.emb (ix3 u d e)) = _
  refine congrArg (cArr V c) (funext fun a => Fin.ext ?_)
  match a with
  | ⟨0, _⟩ => show win1_2.index t (0 : Fin 3) * 1 + 1 * u.val = b.val; have := u.isLt; omega
  | ⟨1, _⟩ => show win1_2.index t (1 : Fin 3) * 1024 + 1 * d.val = d.val; omega
  | ⟨2, _⟩ => show win1_2.index t (2 : Fin 3) * 1024 + 1 * e.val = e.val; omega

/-- The second batch-matrix block of point t: batch t / 8. -/
theorem xb1_apply (c : Dev nD) (t : Fin cfg1.N) (u : Fin 1) (d e : Fin 1024) (b : Fin 4) (hb : b.val = t.val / 8) :
    xb1 V c t (ix3 u d e) = xArr V c (ix3 b d e) := by
  obtain ⟨-, -, -, -, -, -, -, -, e0, e1, e2, -⟩ := gridIdx t
  show xArr V c (((cfg1.win 3).blk t).view.emb (ix3 u d e)) = _
  refine congrArg (xArr V c) (funext fun a => Fin.ext ?_)
  match a with
  | ⟨0, _⟩ => show win1_3.index t (0 : Fin 3) * 1 + 1 * u.val = b.val; have := u.isLt; omega
  | ⟨1, _⟩ => show win1_3.index t (1 : Fin 3) * 1024 + 1 * d.val = d.val; omega
  | ⟨2, _⟩ => show win1_3.index t (2 : Fin 3) * 1024 + 1 * e.val = e.val; omega

/-! ## From blocks to the array -/

/-- The array the region leaves: softmax((q·w)·C)·X of the four arrays it reads. -/
abbrev outArr (c : Dev nD) : Cert.Spec.A3.Idx → EReal :=
  Cert.Spec.Bmm (Cert.Spec.Soft (Cert.Spec.Bmm (Cert.Spec.Filt (qArr V c) (wArr V c)) (cArr V c))) (xArr V c)

/-- Entry (r, e) of the block point t stores is entry (t / 8, 512·(t % 8) + r, e) of that array: the block's row of
    the query runs through the whole filter, the whole batch matrices, and a softmax along its own row only. -/
theorem stored_entry (c : Dev nD) (t : Fin cfg1.N) (u : Fin 1) (r : Fin 512) (e : Fin 1024) (b : Fin 4) (σ : Fin 4096)
    (hb : b.val = t.val / 8) (hσ : σ.val = 512 * (t.val % 8) + r.val) :
    outO (F := Ideal) (qb1 V c t) (wb1 V c t) (cb1 V c t) (xb1 V c t) (ix3 u r e) = outArr V c (ix3 b σ e) := by
  refine (outO_apply _ _ _ _ u r e).trans ?_
  show _ = ∑ d : Fin 1024, Cert.Spec.Soft (Cert.Spec.Bmm (Cert.Spec.Filt (qArr V c) (wArr V c)) (cArr V c)) (ix3 b σ d)
      * xArr V c (ix3 b d e)
  refine Finset.sum_congr rfl fun d _ => congrArg₂ (· * ·) ?_ (xb1_apply V c t 0 d e b hb)
  show _ = softRow (fun e' => Cert.Spec.Bmm (Cert.Spec.Filt (qArr V c) (wArr V c)) (cArr V c) (ix3 b σ e')) d
  refine congrArg (fun f => softRow f d) (funext fun e' => ?_)
  show _ = ∑ d' : Fin 1024, Cert.Spec.Filt (qArr V c) (wArr V c) (ix3 b σ d')
      * cArr V c (ix3 b d' e')
  refine Finset.sum_congr rfl fun d' _ => congrArg₂ (· * ·) ?_ (cb1_apply V c t 0 d' e' b hb)
  show _ = ∑ k : Fin 1024, qArr V c (ix3 b σ k) * wArr V c (ix2 k d')
  exact Finset.sum_congr rfl fun k _ => congrArg₂ (· * ·) (qb1_apply V c t 0 r k b σ hb hσ) (wb1_apply V c t k d')

/-- What point t writes back is its block of that array. -/
theorem flushed1_4_eq (c : Dev nD) (t : Fin cfg1.N) :
    (dat1 (F := Ideal) V c).flushed 4 t = ((cfg1.win 4).blk t).view.read (Elt Ideal) (outArr V c) := by
  show (cfg1.win 4).cut (grid1.coords t) ((dat1 (F := Ideal) V c).after 4 t) = _
  rw [after1_4]
  obtain ⟨-, -, -, -, -, -, -, -, -, -, -, e0, e1, e2⟩ := gridIdx t
  funext j
  have ht : t.val < 32 := t.isLt
  have h0 : (j 0).val < 1 := (j 0).isLt
  have h1 : (j 1).val < 512 := (j 1).isLt
  have h2 : (j 2).val < 1024 := (j 2).isLt
  refine (Eq.trans ?_ (stored_entry V c t (j 0) (j 1) (j 2) ⟨t.val / 8, by omega⟩ ⟨512 * (t.val % 8) + (j 1).val, by omega⟩ rfl rfl)).trans ?_
  · exact congrArg (outO (F := Ideal) (qb1 V c t) (wb1 V c t) (cb1 V c t) (xb1 V c t))
      (funext fun a => by match a with | ⟨0, _⟩ => rfl | ⟨1, _⟩ => rfl | ⟨2, _⟩ => rfl)
  · show outArr V c _ = outArr V c (((cfg1.win 4).blk t).view.emb j)
    refine congrArg (outArr V c) (funext fun a => Fin.ext ?_)
    match a with
    | ⟨0, _⟩ => show t.val / 8 = win1_4.index t (0 : Fin 3) * 1 + 1 * (j 0).val; omega
    | ⟨1, _⟩ => show 512 * (t.val % 8) + (j 1).val = win1_4.index t (1 : Fin 3) * 512 + 1 * (j 1).val; omega
    | ⟨2, _⟩ => show (j 2).val = win1_4.index t (2 : Fin 3) * 1024 + 1 * (j 2).val; omega

/-- An index of the output array is in point t's block iff each coordinate is in the block's range on its axis. -/
theorem mem_blk1_4 (t : Fin cfg1.N) (i : S4x4096x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v1).slice (win1_4.rect t)).set ↔ _
  rw [View.set_slice_whole, Rect.mem_set_unit]
  exact Iff.rfl

/-- Every index of the output array is in the block of the point of its batch and its 512-row S-block. -/
theorem cover1_4 (i : S4x4096x1024.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1024 := (i 2).isLt
  have hN : 8 * (i 0).val + (i 1).val / 512 < cfg1.N := by show _ < 32; omega
  obtain ⟨t, htv⟩ : ∃ t : Fin cfg1.N, t.val = 8 * (i 0).val + (i 1).val / 512 := ⟨⟨_, hN⟩, rfl⟩
  obtain ⟨-, -, -, -, -, -, -, -, -, -, -, e0, e1, e2⟩ := gridIdx t
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

/-- After the region, its output array holds softmax((q·w)·C)·X, with C and X the two arrays it reads as batch matrices. -/
theorem arr1_4 (c : Dev nD) :
    (dat1 (F := Ideal) V c).arrAt 4 cfg1.N
      = Cert.Spec.Bmm (Cert.Spec.Soft (Cert.Spec.Bmm (Cert.Spec.Filt (V c main_arg0) (V c main_arg3)) (V c main_v0_0))) (V c main_v0_1) :=
  (dat1 (F := Ideal) V c).arrAt_eq_of_cover 4 (outArr V c) (fun t _ => flushed1_4_eq V c t) (cover1_4)

end Cert.KernelIdeal.Hand

end
-- ==== Proof.RefValue.lean ====
/-
  The reference program's result, at the extended reals, is the specification's function of its four arguments:
  its five matrix products are the specification's sums, its row maximum is the fold the specification names, and
  its row sum from zero is the plain sum.
-/
import proofs.«169305_j78357383348331_1_alg».proof.Proof.Gen.ReferenceIdeal.Read
import proofs.«169305_j78357383348331_1_alg».proof.Proof.Spec
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The operand indices of the five products, by coordinates -/

theorem lidx0 (i : S4x4096x1024.Idx) (k : Fin 1024) :
    lidx_main_v0 i k = ix3 (n0 := 4) (n1 := 4096) (n2 := 1024) (i 0) (i 1) k :=
  funext fun a => by match a with | ⟨0, _⟩ => rfl | ⟨1, _⟩ => rfl | ⟨2, _⟩ => rfl
theorem ridx0 (i : S4x4096x1024.Idx) (k : Fin 1024) :
    ridx_main_v0 i k = ix2 (n0 := 1024) (n1 := 1024) k (i 2) :=
  funext fun a => by match a with | ⟨0, _⟩ => rfl | ⟨1, _⟩ => rfl
theorem lidx1 (i : S4x1024x1024.Idx) (k : Fin 4096) :
    lidx_main_v1 i k = ix3 (n0 := 4) (n1 := 4096) (n2 := 1024) (i 0) k (i 1) :=
  funext fun a => by match a with | ⟨0, _⟩ => rfl | ⟨1, _⟩ => rfl | ⟨2, _⟩ => rfl
theorem ridx1 (i : S4x1024x1024.Idx) (k : Fin 4096) :
    ridx_main_v1 i k = ix3 (n0 := 4) (n1 := 4096) (n2 := 1024) (i 0) k (i 2) :=
  funext fun a => by match a with | ⟨0, _⟩ => rfl | ⟨1, _⟩ => rfl | ⟨2, _⟩ => rfl
theorem lidx2 (i : S4x1024x1024.Idx) (k : Fin 4096) :
    lidx_main_v2 i k = ix3 (n0 := 4) (n1 := 4096) (n2 := 1024) (i 0) k (i 1) :=
  funext fun a => by match a with | ⟨0, _⟩ => rfl | ⟨1, _⟩ => rfl | ⟨2, _⟩ => rfl
theorem ridx2 (i : S4x1024x1024.Idx) (k : Fin 4096) :
    ridx_main_v2 i k = ix3 (n0 := 4) (n1 := 4096) (n2 := 1024) (i 0) k (i 2) :=
  funext fun a => by match a with | ⟨0, _⟩ => rfl | ⟨1, _⟩ => rfl | ⟨2, _⟩ => rfl
theorem lidx3 (i : S4x4096x1024.Idx) (k : Fin 1024) :
    lidx_main_v3 i k = ix3 (n0 := 4) (n1 := 4096) (n2 := 1024) (i 0) (i 1) k :=
  funext fun a => by match a with | ⟨0, _⟩ => rfl | ⟨1, _⟩ => rfl | ⟨2, _⟩ => rfl
theorem ridx3 (i : S4x4096x1024.Idx) (k : Fin 1024) :
    ridx_main_v3 i k = ix3 (n0 := 4) (n1 := 1024) (n2 := 1024) (i 0) k (i 2) :=
  funext fun a => by match a with | ⟨0, _⟩ => rfl | ⟨1, _⟩ => rfl | ⟨2, _⟩ => rfl
theorem lidx15 (i : S4x4096x1024.Idx) (k : Fin 1024) :
    lidx_main_v15 i k = ix3 (n0 := 4) (n1 := 4096) (n2 := 1024) (i 0) (i 1) k :=
  funext fun a => by match a with | ⟨0, _⟩ => rfl | ⟨1, _⟩ => rfl | ⟨2, _⟩ => rfl
theorem ridx15 (i : S4x4096x1024.Idx) (k : Fin 1024) :
    ridx_main_v15 i k = ix3 (n0 := 4) (n1 := 1024) (n2 := 1024) (i 0) k (i 2) :=
  funext fun a => by match a with | ⟨0, _⟩ => rfl | ⟨1, _⟩ => rfl | ⟨2, _⟩ => rfl

/-! ## The first four products -/

/-- The filter product is the specification's. -/
theorem v0_eq (x0 : (⟨S4x4096x1024, .f32⟩ : BufTy).Contents (Elt Ideal)) (x3 : (⟨S1024x1024, .f32⟩ : BufTy).Contents (Elt Ideal)) :
    val_main_v0 (F := Ideal) x0 x3 = Cert.Spec.Filt x0 x3 := by
  funext i
  rw [val_main_v0_apply]
  unfold Cert.Spec.Filt
  refine Finset.sum_congr rfl fun k _ => ?_
  rw [lidx0, ridx0]

/-- A per-batch product over the middle axis is the specification's. -/
theorem v1_eq (x0 x1 : (⟨S4x4096x1024, .f32⟩ : BufTy).Contents (Elt Ideal)) :
    val_main_v1 (F := Ideal) x0 x1 = Cert.Spec.Cmat x0 x1 := by
  funext i
  rw [val_main_v1_apply]
  unfold Cert.Spec.Cmat
  refine Finset.sum_congr rfl fun k _ => ?_
  rw [lidx1, ridx1]

/-- The other per-batch product over the middle axis likewise. -/
theorem v2_eq (x1 x2 : (⟨S4x4096x1024, .f32⟩ : BufTy).Contents (Elt Ideal)) :
    val_main_v2 (F := Ideal) x1 x2 = Cert.Spec.Cmat x1 x2 := by
  funext i
  rw [val_main_v2_apply]
  unfold Cert.Spec.Cmat
  refine Finset.sum_congr rfl fun k _ => ?_
  rw [lidx2, ridx2]

/-- The logits are the specification's batched product of the filter and the first per-batch product. -/
theorem v3_eq (x0 x1 : (⟨S4x4096x1024, .f32⟩ : BufTy).Contents (Elt Ideal)) (x3 : (⟨S1024x1024, .f32⟩ : BufTy).Contents (Elt Ideal)) :
    val_main_v3 (F := Ideal) x0 x1 x3 = Cert.Spec.Bmm (Cert.Spec.Filt x0 x3) (Cert.Spec.Cmat x0 x1) := by
  funext i
  rw [val_main_v3_apply, v0_eq, v1_eq]
  unfold Cert.Spec.Bmm
  refine Finset.sum_congr rfl fun k _ => ?_
  rw [lidx3, ridx3]

/-! ## The row maximum -/

/-- A reduced index with coordinate `k` put back on the last axis. -/
theorem lift_row (hred : S4x4096x1024.Reduces [2] S4x4096) (j : S4x4096.Idx) (k : Fin (S4x4096x1024.size 2)) :
    hred.lift j k = ix3 (n0 := 4) (n1 := 4096) (n2 := 1024) (j 0) (j 1) ⟨k.val, k.isLt⟩ := by
  funext c; apply Fin.ext
  match c with | ⟨0, _⟩ => rfl | ⟨1, _⟩ => rfl | ⟨2, _⟩ => rfl

/-- The reduction with a maximum over the last axis, from a seed that is −∞'s word, is the fold of the maximum over the row. -/
theorem rowfold_read (l : S4x4096x1024.Idx → EReal) (init : S_.Idx → EReal) (hinit : ∀ u, init u = Cert.Spec.negInf) (j : S4x4096.Idx) :
    Host.reduce (FloatOps.maximumf (F := Ideal) (φ := .f32)) l init reducesTo_S4x4096x1024_S4x4096_d2 h_S_ j
      = (Finset.univ : Finset (Fin 1024)).fold max Cert.Spec.negInf (fun e : Fin 1024 => l (ix3 (n0 := 4) (n1 := 4096) (n2 := 1024) (j 0) (j 1) e)) := by
  have hred : S4x4096x1024.Reduces [2] S4x4096 := by decide
  rw [Host.reduce_eq_fold_single _ l init reducesTo_S4x4096x1024_S4x4096_d2 hred h_S_ j, hinit]
  have hf : (l ∘ hred.lift j) = fun e : Fin 1024 => l (ix3 (n0 := 4) (n1 := 4096) (n2 := 1024) (j 0) (j 1) e) :=
    funext fun k => congrArg l (lift_row hred j k)
  exact congrArg (fun f => Finset.fold max Cert.Spec.negInf f (Finset.univ : Finset (Fin 1024))) hf

/-- The joined row maximum is the specification's. -/
theorem v6_read (x0 x1 : (⟨S4x4096x1024, .f32⟩ : BufTy).Contents (Elt Ideal)) (x3 : (⟨S1024x1024, .f32⟩ : BufTy).Contents (Elt Ideal)) (j : S4x4096.Idx) :
    val_main_v6 (F := Ideal) x0 x1 x3 j
      = Cert.Spec.rowMax (fun e : Fin 1024 => val_main_v3 (F := Ideal) x0 x1 x3 (ix3 (n0 := 4) (n1 := 4096) (n2 := 1024) (j 0) (j 1) e)) := by
  rw [val_main_v6_apply, val_main_v5_apply, val_main_cst_0_apply]
  unfold val_main_v4
  generalize val_main_v3 (F := Ideal) x0 x1 x3 = l
  rw [rowfold_read l (val_main_cst (F := Ideal)) (fun u => rfl) j]
  rfl

/-! ## The exponentials and the softmax -/

/-- An exponential of the shifted logit. -/
theorem v10_read (x0 x1 : (⟨S4x4096x1024, .f32⟩ : BufTy).Contents (Elt Ideal)) (x3 : (⟨S1024x1024, .f32⟩ : BufTy).Contents (Elt Ideal)) (i : S4x4096x1024.Idx) :
    val_main_v10 (F := Ideal) x0 x1 x3 i
      = Ideal.exp (val_main_v3 (F := Ideal) x0 x1 x3 i
          - Cert.Spec.rowMax (fun e : Fin 1024 => val_main_v3 (F := Ideal) x0 x1 x3 (ix3 (n0 := 4) (n1 := 4096) (n2 := 1024) (i 0) (i 1) e))) := by
  rw [val_main_v10_apply, val_main_v9_apply, val_main_v8_apply, val_main_v7_apply, v6_read]
  generalize val_main_v3 (F := Ideal) x0 x1 x3 = l
  rfl

/-- The row sum's operand index, by coordinates. -/
theorem idx11 (i : S4x4096x1024.Idx) (k : Fin 1024) :
    idx_main_v11 (idx_main_v12 (idx_main_v13 i)) k = ix3 (n0 := 4) (n1 := 4096) (n2 := 1024) (i 0) (i 1) k :=
  funext fun a => by match a with | ⟨0, _⟩ => rfl | ⟨1, _⟩ => rfl | ⟨2, _⟩ => rfl

/-- The quotient is the specification's row softmax of the logits. -/
theorem v14_eq (x0 x1 : (⟨S4x4096x1024, .f32⟩ : BufTy).Contents (Elt Ideal)) (x3 : (⟨S1024x1024, .f32⟩ : BufTy).Contents (Elt Ideal)) :
    val_main_v14 (F := Ideal) x0 x1 x3 = Cert.Spec.Soft (val_main_v3 (F := Ideal) x0 x1 x3) := by
  funext i
  rw [val_main_v14_apply, val_main_v13_apply, val_main_v12_apply, val_main_v11_apply, val_main_cst_1_apply, v10_read]
  simp only [v10_read]
  generalize val_main_v3 (F := Ideal) x0 x1 x3 = l
  unfold Cert.Spec.Soft
  rw [Ideal.hostDivf_def, Ideal.ofBits_def, Ideal.ofBits_zero_f32, zero_add]
  refine congrArg (Ideal.div _) (Finset.sum_congr rfl fun k _ => ?_)
  rw [idx11]

/-- The reference's last stage is the specification's function of the arguments. -/
theorem ref_eq (x0 x1 x2 : (⟨S4x4096x1024, .f32⟩ : BufTy).Contents (Elt Ideal)) (x3 : (⟨S1024x1024, .f32⟩ : BufTy).Contents (Elt Ideal)) :
    val_main_v15 (F := Ideal) x0 x1 x2 x3 = Cert.Spec.Out x0 x1 x2 x3 := by
  funext i
  rw [val_main_v15_apply, v14_eq, v3_eq, v2_eq]
  unfold Cert.Spec.Out
  generalize Cert.Spec.Soft (Cert.Spec.Bmm (Cert.Spec.Filt x0 x3) (Cert.Spec.Cmat x0 x1)) = p
  generalize Cert.Spec.Cmat x1 x2 = X
  show _ = Cert.Spec.Bmm p X i
  unfold Cert.Spec.Bmm
  refine Finset.sum_congr rfl fun k _ => ?_
  rw [lidx15, ridx15]

end Cert.ReferenceIdeal.RefValue

end
-- ==== Proof.lean ====
/-
  The certificate: the word-level kernel program and its idealization each run to the end leaving their arguments
  unchanged; the idealization rewrote nothing; and at the extended reals the idealized kernel program and the
  reference end with the same result, softmax((q·w)·(qᵀk))·(kᵀv) row by row.

  The kernel program is two regions. The first accumulates qᵀk and kᵀv over sixteen blocks of 256 rows per batch
  into two scratch matrices, from zero, and writes them out; a sum taken block by block from zero is the sum over
  all rows. The second maps 512-row blocks of q through the filter, the first matrix, a row softmax and the second
  matrix. The reference does the same with five whole products; at the extended reals a change of float format is the
  identity, so the two agree index by index.
-/
import proofs.«169305_j78357383348331_1_alg».proof.Defs
import proofs.«169305_j78357383348331_1_alg».proof.Proof.Gen.Kernel
import proofs.«169305_j78357383348331_1_alg».proof.Proof.Gen.KernelIdeal
import proofs.«169305_j78357383348331_1_alg».proof.Proof.Gen.ReferenceIdeal
import proofs.«169305_j78357383348331_1_alg».proof.Proof.Gen.Pre_finite_inputs
import proofs.«169305_j78357383348331_1_alg».proof.Proof.Gen.ReferenceIdeal.Run
import proofs.«169305_j78357383348331_1_alg».proof.Proof.K.Run
import proofs.«169305_j78357383348331_1_alg».proof.Proof.KI.Run
import proofs.«169305_j78357383348331_1_alg».proof.Proof.KI.Value0
import proofs.«169305_j78357383348331_1_alg».proof.Proof.KI.Value1
import proofs.«169305_j78357383348331_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- What the idealized kernel program's result buffer ends with: the specification's function of the arguments.
    Region 1's output over what it was entered from, which are the arguments and region 0's two products. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.W2 m c (Proc.devRef .tc Cert.KernelIdeal.main_v1)
      = Cert.Spec.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  rw [Cert.KernelIdeal.Hand.W2_main_v1, Cert.KernelIdeal.Hand.arr1_4, Cert.KernelIdeal.Hand.V1_main_arg0, Cert.KernelIdeal.Hand.V1_main_arg3,
    Cert.KernelIdeal.Hand.V1_main_v0_0, Cert.KernelIdeal.Hand.V1_main_v0_1, Cert.KernelIdeal.Hand.arr0_3, Cert.KernelIdeal.Hand.arr0_4]
  rfl

theorem algebraic : Cert.algebraic_KernelIdeal_ReferenceIdeal := by
  intro m ρ m' ρ' _ hagree
  refine ⟨fun c => Cert.Spec.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_result m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v15_eq _ _ _ _).trans (Cert.ReferenceIdeal.RefValue.ref_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
